-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S64 .f32) (main_arg5 : FVec F S64x2 .f32) (main_arg6 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg5
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x256 .f32) (main_arg1 : FVec F S256x128 .f32) (main_arg2 : FVec F S128 .f32) (main_arg3 : FVec F S128x64 .f32) (main_arg4 : FVec F S64 .f32) (main_arg5 : FVec F S64x2 .f32) (main_arg6 : FVec F S2 .f32) (main_arg7 : IVec S800000 32) (main_arg8 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 67
  | .vmem => 34
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S1x128, .f32⟩
  | .hbm, ⟨46, _⟩ => ⟨S50000x128, .f32⟩
  | .hbm, ⟨47, _⟩ => ⟨S50000x1, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x1, .f32⟩
  | .hbm, ⟨63, _⟩ => ⟨S1x64, .f32⟩
  | .hbm, ⟨64, _⟩ => ⟨S50000x64, .f32⟩
  | .hbm, ⟨65, _⟩ => ⟨S1x2, .f32⟩
  | .hbm, ⟨66, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x2, .f32⟩
  | .local _ .vmem, ⟨31, _⟩ => ⟨S1x2, .f32⟩
  | .local _ .vmem, ⟨32, _⟩ => ⟨S5000x2, .f32⟩
  | .local _ .vmem, ⟨33, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S50000x2.size a
  hwx4_3 : ∀ i : grid4.Coords, EltTy.bits .f32 = 32 ∨ (Rect.block (s := S50000x2) S5000x2.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 102
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x64, .f32⟩
  | .hbm, ⟨74, _⟩ => ⟨S50000, .f32⟩
  | .hbm, ⟨75, _⟩ => ⟨S50000x1, .f32⟩
  | .hbm, ⟨76, _⟩ => ⟨S50000x64, .f32⟩
  | .hbm, ⟨77, _⟩ => ⟨S50000x64, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x64, .f32⟩
  | .hbm, ⟨87, _⟩ => ⟨S_, .f32⟩
  | .hbm, ⟨88, _⟩ => ⟨S50000x64, .f32⟩
  | .hbm, ⟨89, _⟩ => ⟨S800000x1, .i32⟩
  | .hbm, ⟨90, _⟩ => ⟨S50000x64, .f32⟩
  | .hbm, ⟨91, _⟩ => ⟨S50000, .f32⟩
  | .hbm, ⟨92, _⟩ => ⟨S50000x1, .f32⟩
  | .hbm, ⟨93, _⟩ => ⟨S50000x64, .f32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | .hbm, ⟨98, _⟩ => ⟨S50000x2, .f32⟩
  | .hbm, ⟨99, _⟩ => ⟨S1x2, .f32⟩
  | .hbm, ⟨100, _⟩ => ⟨S50000x2, .f32⟩
  | .hbm, ⟨101, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x2_S50000x2_1_0_0_1_n_n_wf : DotDims.WF S50000x64 S64x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.NodeFns.lean ====
/-
  The five node-wise maps the kernel's five grid passes compute, stated once over whole arrays at the extended
  reals, index by index. A node is a row `v < 50000`; a feature is a column.
  * `scaleProject1`, `scaleProject2`: scale row `v` of `x` by the node's factor `s v`, then multiply by the weight
    matrix: entry `(v, j)` is `∑ k, (x (v, k) * s v) * w (k, j)`.
  * `rescaleBiasRelu1`: `max (a (v, j) * s v + b j) 0`.   * `rescaleBias2`: `a (v, j) * s v + b j`.
  * `projectBias`: `(∑ k, h (v, k) * w (k, j)) + b j`.
-/
import proofs.«135889_j65687229826124_1_alg».proof.KernelIdeal
import Idealize.ShloMosaic.Lib.ValueIdx
import Idealize.ShloMosaic.PureOps.Ideal

noncomputable section

namespace Cert.KernelIdeal.NodeFns

open Idealize.ShloMosaic Idealize.ShloMosaic.ValueIdx Cert.KernelIdeal

/-- The node (row) an index of a `[50000, n]` array names. -/
abbrev node {n : Nat} (i : (⟨2, ![50000, n]⟩ : Shape).Idx) : Fin 50000 := ⟨(i 0).val, (i 0).isLt⟩
/-- The feature (column) an index of a `[50000, n]` array names. -/
abbrev feat {n : Nat} (i : (⟨2, ![50000, n]⟩ : Shape).Idx) : Fin n := ⟨(i 1).val, (i 1).isLt⟩

/-- Row `v` of `x` scaled by `s v`, times `w` (256 → 128 features). -/
def scaleProject1 (x : FVec Ideal S50000x256 .f32) (s : FVec Ideal S50000x1 .f32) (w : FVec Ideal S256x128 .f32) :
    FVec Ideal S50000x128 .f32 :=
  fun i => ∑ k : Fin 256, (x (ix2 (node i) k) * s (ix2 (node i) (0 : Fin 1))) * w (ix2 k (feat i))

/-- `max (a (v, j) * s v + b j) 0` (128 features). -/
def rescaleBiasRelu1 (a : FVec Ideal S50000x128 .f32) (s : FVec Ideal S50000x1 .f32) (b : FVec Ideal S1x128 .f32) :
    FVec Ideal S50000x128 .f32 :=
  fun i => max (a i * s (ix2 (node i) (0 : Fin 1)) + b (ix2 (0 : Fin 1) (feat i))) (Ideal.ofBits .f32 0x00000000#32)

/-- Row `v` of `x` scaled by `s v`, times `w` (128 → 64 features). -/
def scaleProject2 (x : FVec Ideal S50000x128 .f32) (s : FVec Ideal S50000x1 .f32) (w : FVec Ideal S128x64 .f32) :
    FVec Ideal S50000x64 .f32 :=
  fun i => ∑ k : Fin 128, (x (ix2 (node i) k) * s (ix2 (node i) (0 : Fin 1))) * w (ix2 k (feat i))

/-- `a (v, j) * s v + b j` (64 features). -/
def rescaleBias2 (a : FVec Ideal S50000x64 .f32) (s : FVec Ideal S50000x1 .f32) (b : FVec Ideal S1x64 .f32) :
    FVec Ideal S50000x64 .f32 :=
  fun i => a i * s (ix2 (node i) (0 : Fin 1)) + b (ix2 (0 : Fin 1) (feat i))

/-- `(∑ k, h (v, k) * w (k, j)) + b j` (64 → 2 features). -/
def projectBias (h : FVec Ideal S50000x64 .f32) (w : FVec Ideal S64x2 .f32) (b : FVec Ideal S1x2 .f32) :
    FVec Ideal S50000x2 .f32 :=
  fun i => (∑ k : Fin 64, h (ix2 (node i) k) * w (ix2 k (feat i))) + b (ix2 (0 : Fin 1) (feat i))

end Cert.KernelIdeal.NodeFns

end
-- ==== Proof.Layers.lean ====
/-
  The two graph-convolution layers and the linear head as ONE composed term of the nine argument arrays, at the
  extended reals: the per-node factor `invSqrtDeg e` = 1 / sqrt (max 1 (how many edges list the node in `e`)); the
  sparse aggregate (gather the rows the edges' sources name, add them into the rows their destinations name);
  layer 1 = clamp (aggregate (scale-and-project x) · in-factor + bias), layer 2 the same without the clamp, the head a
  projection plus bias. The node-wise maps are NodeFns'; the host operations between them are kept as printed.
-/
import proofs.«135889_j65687229826124_1_alg».proof.Proof.NodeFns
import proofs.«135889_j65687229826124_1_alg».proof.Proof.Gen.KernelIdeal

noncomputable section

namespace Cert.KernelIdeal.Layers

open Idealize.ShloMosaic Cert.KernelIdeal Cert.KernelIdeal.Gen Cert.KernelIdeal.NodeFns

/-- An edge list: 800000 node numbers. -/
abbrev Edges := (⟨S800000, .i32⟩ : BufTy).Contents (Elt Ideal)

/-- Per node, `rsqrt (max 1 (the number of edges that list it))`. -/
def invSqrtDeg (e : Edges) : FVec Ideal S50000 .f32 :=
  Host.rsqrt (maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 e)
      (broadcastInDim S800000 ![] bcast_S_S800000 (constant S_ .f32 0x3F800000#32))))

/-- A per-node vector as a column. -/
def asColumn (s : FVec Ideal S50000 .f32) : FVec Ideal S50000x1 .f32 := shapeCast S50000x1 s shapeCasts_S50000_S50000x1
/-- A bias vector as a row. -/
def asRow128 (b : FVec Ideal S128 .f32) : FVec Ideal S1x128 .f32 := shapeCast S1x128 b shapeCasts_S128_S1x128
def asRow64 (b : FVec Ideal S64 .f32) : FVec Ideal S1x64 .f32 := shapeCast S1x64 b shapeCasts_S64_S1x64
def asRow2 (b : FVec Ideal S2 .f32) : FVec Ideal S1x2 .f32 := shapeCast S1x2 b shapeCasts_S2_S1x2

/-- The edges' sources with a negative number wrapped once around the 50000 nodes, as index rows. -/
def sourceRows (src : Edges) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Gather the rows the sources name; add each into the row its destination names (128 features). -/
def aggregate128 (h : FVec Ideal S50000x128 .f32) (src dst : Edges) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (sourceRows src))

/-- The same over 64 features. -/
def aggregate64 (h : FVec Ideal S50000x64 .f32) (src dst : Edges) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 h (sourceRows src))

/-- Layer 1's message: scale by the out-factor, project 256 → 128. -/
def message1 (x : FVec Ideal S50000x256 .f32) (w1 : FVec Ideal S256x128 .f32) (src : Edges) : FVec Ideal S50000x128 .f32 :=
  scaleProject1 x (asColumn (invSqrtDeg src)) w1
/-- Layer 1: aggregate, rescale by the in-factor, add the bias, clamp at zero. -/
def layer1 (x : FVec Ideal S50000x256 .f32) (w1 : FVec Ideal S256x128 .f32) (b1 : FVec Ideal S128 .f32) (src dst : Edges) :
    FVec Ideal S50000x128 .f32 :=
  rescaleBiasRelu1 (aggregate128 (message1 x w1 src) src dst) (asColumn (invSqrtDeg dst)) (asRow128 b1)
/-- Layer 2's message: scale by the out-factor, project 128 → 64. -/
def message2 (x : FVec Ideal S50000x256 .f32) (w1 : FVec Ideal S256x128 .f32) (b1 : FVec Ideal S128 .f32)
    (w2 : FVec Ideal S128x64 .f32) (src dst : Edges) : FVec Ideal S50000x64 .f32 :=
  scaleProject2 (layer1 x w1 b1 src dst) (asColumn (invSqrtDeg src)) w2
/-- Layer 2 (the hidden result): aggregate, rescale, add the bias. -/
def layer2 (x : FVec Ideal S50000x256 .f32) (w1 : FVec Ideal S256x128 .f32) (b1 : FVec Ideal S128 .f32)
    (w2 : FVec Ideal S128x64 .f32) (b2 : FVec Ideal S64 .f32) (src dst : Edges) : FVec Ideal S50000x64 .f32 :=
  rescaleBias2 (aggregate64 (message2 x w1 b1 w2 src dst) src dst) (asColumn (invSqrtDeg dst)) (asRow64 b2)
/-- The head (the logits result): project the hidden result 64 → 2 and add the bias. -/
def head (x : FVec Ideal S50000x256 .f32) (w1 : FVec Ideal S256x128 .f32) (b1 : FVec Ideal S128 .f32)
    (w2 : FVec Ideal S128x64 .f32) (b2 : FVec Ideal S64 .f32) (wf : FVec Ideal S64x2 .f32) (bf : FVec Ideal S2 .f32)
    (src dst : Edges) : FVec Ideal S50000x2 .f32 :=
  projectBias (layer2 x w1 b1 w2 b2 src dst) wf (asRow2 bf)

end Cert.KernelIdeal.Layers

end
-- ==== Proof.HostTerms.lean ====
/-
  The host operations between the grid passes as terms over ANY float instance: the per-node factor
  rsqrt (max 1 (edge count)), a vector as a column or a row, the edges' wrapped sources as index rows, and the sparse
  aggregate (gather by source, add into destination). At the extended reals they are Layers' terms of the same names.
-/
import proofs.«135889_j65687229826124_1_alg».proof.Proof.Layers

noncomputable section

namespace Cert.KernelIdeal.HostTerms

open Idealize.ShloMosaic Cert.KernelIdeal Cert.KernelIdeal.Gen

variable {F : FTy → Type} [FloatOps F]

/-- Per node, `rsqrt (max 1 (the number of edges that list it))`. -/
def invSqrtDeg (e : (⟨S800000, .i32⟩ : BufTy).Contents (Elt F)) : FVec F S50000 .f32 :=
  Host.rsqrt (maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 e)
      (broadcastInDim S800000 ![] bcast_S_S800000 (constant S_ .f32 0x3F800000#32))))

def asColumn (s : FVec F S50000 .f32) : FVec F S50000x1 .f32 := shapeCast S50000x1 s shapeCasts_S50000_S50000x1
def asRow128 (b : FVec F S128 .f32) : FVec F S1x128 .f32 := shapeCast S1x128 b shapeCasts_S128_S1x128
def asRow64 (b : FVec F S64 .f32) : FVec F S1x64 .f32 := shapeCast S1x64 b shapeCasts_S64_S1x64
def asRow2 (b : FVec F S2 .f32) : FVec F S1x2 .f32 := shapeCast S1x2 b shapeCasts_S2_S1x2

def sourceRows (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def aggregate128 (h : FVec F S50000x128 .f32) (src dst : (⟨S800000, .i32⟩ : BufTy).Contents (Elt F)) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (sourceRows src))

def aggregate64 (h : FVec F S50000x64 .f32) (src dst : (⟨S800000, .i32⟩ : BufTy).Contents (Elt F)) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 h (sourceRows src))

/-! At the extended reals these are Layers' terms. -/
theorem invSqrtDeg_ideal (e : Layers.Edges) : invSqrtDeg (F := Ideal) e = Layers.invSqrtDeg e := rfl
theorem asColumn_ideal (s : FVec Ideal S50000 .f32) : asColumn (F := Ideal) s = Layers.asColumn s := rfl
theorem asRow128_ideal (b : FVec Ideal S128 .f32) : asRow128 (F := Ideal) b = Layers.asRow128 b := rfl
theorem asRow64_ideal (b : FVec Ideal S64 .f32) : asRow64 (F := Ideal) b = Layers.asRow64 b := rfl
theorem asRow2_ideal (b : FVec Ideal S2 .f32) : asRow2 (F := Ideal) b = Layers.asRow2 b := rfl
theorem aggregate128_ideal (h : FVec Ideal S50000x128 .f32) (src dst : Layers.Edges) :
    aggregate128 (F := Ideal) h src dst = Layers.aggregate128 h src dst := rfl
theorem aggregate64_ideal (h : FVec Ideal S50000x64 .f32) (src dst : Layers.Edges) :
    aggregate64 (F := Ideal) h src dst = Layers.aggregate64 h src dst := rfl

end Cert.KernelIdeal.HostTerms

end
-- ==== Proof.Region0.lean ====
/-
  The first grid pass (scale each node's feature row by the node's factor, then multiply by the weight matrix) read as
  ONE map of whole arrays. At grid point t the pass loads rows 5000 t … 5000 t + 4999 of the features x and of the
  factor column s, and the whole weight matrix w, and stores ∑ k, (x (v, k) * s v) * w (k, j) into the same rows of
  the result. The ten row blocks tile the 50000 rows, so after the pass the result array is
  NodeFns.scaleProject1 x s w everywhere.
-/
import proofs.«135889_j65687229826124_1_alg».proof.Proof.Gen.KernelIdeal.Frame
import proofs.«135889_j65687229826124_1_alg».proof.Proof.NodeFns
import Idealize.ShloMosaic.Lib.Pipeline.Value
import Idealize.ShloMosaic.Lib.ValueIdx
import Idealize.ShloMosaic.PureOps.Ideal.Laws

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The left operand's row coordinate in the product is the result's row. -/
theorem lhs_dot_0 (i : S5000x128.Idx) (r : dot_S5000x256_S256x128_S5000x128_1_0_0_1_n_n.contr.Idx) :
    (dot_S5000x256_S256x128_S5000x128_1_0_0_1_n_n.lhsIdx i r 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column coordinate is the contracted index. -/
theorem lhs_dot_1 (i : S5000x128.Idx) (r : dot_S5000x256_S256x128_S5000x128_1_0_0_1_n_n.contr.Idx) :
    (dot_S5000x256_S256x128_S5000x128_1_0_0_1_n_n.lhsIdx i r 1).val = (r ⟨0, by decide⟩).val :=
  dot_S5000x256_S256x128_S5000x128_1_0_0_1_n_n.lhsIdx_val_of_single rfl i r
/-- The right operand's row coordinate is the contracted index. -/
theorem rhs_dot_0 (i : S5000x128.Idx) (r : dot_S5000x256_S256x128_S5000x128_1_0_0_1_n_n.contr.Idx) :
    (dot_S5000x256_S256x128_S5000x128_1_0_0_1_n_n.rhsIdx i r 0).val = (r ⟨0, by decide⟩).val :=
  dot_S5000x256_S256x128_S5000x128_1_0_0_1_n_n.rhsIdx_val_of_single rfl i r
/-- The right operand's column coordinate is the result's column. -/
theorem rhs_dot_1 (i : S5000x128.Idx) (r : dot_S5000x256_S256x128_S5000x128_1_0_0_1_n_n.contr.Idx) :
    (dot_S5000x256_S256x128_S5000x128_1_0_0_1_n_n.rhsIdx i r 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The stored value at row p, column q of the block, from the three loaded blocks: the product into a zero
    accumulator is the plain sum over the 256 contracted features; rounding to the narrower format is the identity at
    the extended reals. -/
theorem pay_apply (x0 : Vec Ideal S5000x256 .f32) (x1 : Vec Ideal S5000x1 .f32) (x2 : Vec Ideal S256x128 .f32)
    (p : Fin 5000) (q : Fin 128) :
    k0_pay1 (F := Ideal) x0 x1 x2 (ix2 p q)
      = ∑ k : Fin 256, (x0 (ix2 p k) * x1 (ix2 p (0 : Fin 1))) * x2 (ix2 k q) := by
  unfold k0_pay1
  simp only [Idealize.ShloMosaic.shapeCast_self]
  show FloatOps.matmul dot_S5000x256_S256x128_S5000x128_1_0_0_1_n_n none
      (truncf .bf16 (mulf x0 (broadcastTo S5000x256 x1 broadcasts_S5000x1_S5000x256)) bitsLt_bf16_f32)
      (truncf .bf16 x2 bitsLt_bf16_f32) (constant (F := Ideal) S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]
  show (x0 (ix2 p k) * broadcastTo S5000x256 x1 broadcasts_S5000x1_S5000x256 (ix2 p k)) * x2 (ix2 k q) = _
  rw [broadcastTo_apply x1 broadcasts_S5000x1_S5000x256 (ix2 p k) (ix2 p (0 : Fin 1)) (fun a => match a with
        | ⟨0, _⟩ => by show p.val = if (5000 : Nat) = 1 then 0 else p.val; rw [if_neg (by decide)]
        | ⟨1, _⟩ => by show 0 = if (1 : Nat) = 1 then 0 else k.val; rw [if_pos rfl])]

/-- The printed index maps over the ten grid points: the row-block windows sit at block (t, 0), the weight matrix at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- Row p of the feature block at point t is row 5000 t + p of the feature array. -/
theorem blk0_apply (c : Dev nD) (t : Fin cfg0.N) (p : Fin 5000) (k : Fin 256) (i : S50000x256.Idx)
    (hi0 : (i 0).val = 5000 * t.val + p.val) (hi1 : (i 1).val = k.val) :
    (iblk0 V c 0 t : Vec Ideal S5000x256 .f32) (ix2 p k) = (V c main_arg0 : S50000x256.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = (i 0).val; rw [e0, hi0]; omega
  | ⟨1, _⟩ => show win0_0.index t 1 * 256 + 1 * k.val = (i 1).val; rw [e1, hi1]; omega

/-- Row p of the factor column's block at point t is row 5000 t + p of the column. -/
theorem blk1_apply (c : Dev nD) (t : Fin cfg0.N) (p : Fin 5000) (i : S50000x1.Idx)
    (hi0 : (i 0).val = 5000 * t.val + p.val) :
    (iblk0 V c 1 t : Vec Ideal S5000x1 .f32) (ix2 p (0 : Fin 1)) = (V c main_v11 : S50000x1.Idx → Elt Ideal .f32) i := by
  obtain ⟨-, -, e0, e1, -⟩ := idx_facts t
  unfold iblk0
  rw [View.read_apply]
  show V c main_v11 _ = V c main_v11 _
  congr 1
  funext a
  apply Fin.ext
  have hi1 : (i 1).val = 0 := by have h1 : (i 1).val < 1 := (i 1).isLt; omega
  match a with
  | ⟨0, _⟩ => show win0_1.index t 0 * 5000 + 1 * p.val = (i 0).val; rw [e0, hi0]; omega
  | ⟨1, _⟩ => show win0_1.index t 1 * 1 + 1 * 0 = (i 1).val; rw [e1, hi1]

/-- The weight matrix's block at every point is the whole matrix. -/
theorem blk2_apply (c : Dev nD) (t : Fin cfg0.N) (k : Fin 256) (q : Fin 128) :
    (iblk0 V c 2 t : Vec Ideal S256x128 .f32) (ix2 k q) = (V c main_arg1 : S256x128.Idx → Elt Ideal .f32) (ix2 k q) := by
  obtain ⟨-, -, -, -, e0, e1, -⟩ := idx_facts t
  unfold iblk0
  rw [View.read_apply]
  show V c main_arg1 _ = V c main_arg1 _
  congr 1
  funext a
  apply Fin.ext
  match a with
  | ⟨0, _⟩ => show win0_2.index t 0 * 256 + 1 * k.val = k.val; rw [e0]; omega
  | ⟨1, _⟩ => show win0_2.index t 1 * 128 + 1 * q.val = q.val; rw [e1]; omega

/-- What point t writes back is block t of the whole-array map. -/
theorem flushed_eq (c : Dev nD) (t : Fin cfg0.N) :
    (dat0 (F := Ideal) V c).flushed 3 t
      = ((cfg0.win 3).blk t).view.read (Elt Ideal) (NodeFns.scaleProject1 (V c main_arg0) (V c main_v11) (V c main_arg1)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  obtain ⟨-, -, -, -, -, -, e0, e1, ht⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = NodeFns.scaleProject1 (V c main_arg0) (V c main_v11) (V c main_arg1) (((cfg0.win 3).blk t).view.emb (ix2 p q))
  refine (pay_apply (iblk0 V c 0 t) (iblk0 V c 1 t) (iblk0 V c 2 t) p q).trans ?_
  have h0 : ((((cfg0.win 3).blk t).view.emb (ix2 p q)) 0).val = 5000 * t.val + p.val := by
    show win0_3.index t 0 * 5000 + 1 * p.val = _; rw [e0]; omega
  have h1 : ((((cfg0.win 3).blk t).view.emb (ix2 p q)) 1).val = q.val := by
    show win0_3.index t 1 * 128 + 1 * q.val = _; rw [e1]; omega
  have hq : NodeFns.feat (((cfg0.win 3).blk t).view.emb (ix2 p q)) = q := Fin.ext h1
  unfold NodeFns.scaleProject1
  show (∑ k : Fin 256, _) = ∑ k : Fin 256, _
  refine Finset.sum_congr rfl fun k _ => ?_
  rw [blk0_apply V c t p k (ix2 (NodeFns.node (((cfg0.win 3).blk t).view.emb (ix2 p q))) k) h0 rfl,
    blk1_apply V c t p (ix2 (NodeFns.node (((cfg0.win 3).blk t).view.emb (ix2 p q))) (0 : Fin 1)) h0,
    blk2_apply V c t k q, hq]

/-- Every index of the result lies in the block of the point its row selects. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1, -⟩ := idx_facts t
  refine ⟨t, flush0_3 t, ?_⟩
  show i ∈ ((View.whole main_v12).slice (win0_3.rect t)).set
  rw [View.set_slice_whole, Rect.mem_set_unit]
  intro a
  match a with
  | ⟨0, _⟩ =>
    show win0_3.index t 0 * 5000 ≤ (i 0).val ∧ (i 0).val < win0_3.index t 0 * 5000 + 5000
    rw [e0]; show (i 0).val / 5000 * 5000 ≤ (i 0).val ∧ (i 0).val < (i 0).val / 5000 * 5000 + 5000; omega
  | ⟨1, _⟩ =>
    show win0_3.index t 1 * 128 ≤ (i 1).val ∧ (i 1).val < win0_3.index t 1 * 128 + 128
    rw [e1]; omega

/-- After the pass the result array is the whole-array map of the arrays the pass found. -/
theorem arr (c : Dev nD) :
    (dat0 (F := Ideal) V c).arrAt 3 cfg0.N = NodeFns.scaleProject1 (V c main_arg0) (V c main_v11) (V c main_arg1) :=
  (dat0 (F := Ideal) V c).arrAt_eq_of_cover 3 _ (fun t _ => flushed_eq V c t) (cover)

end Cert.KernelIdeal.Region0

end
-- ==== Proof.Region1.lean ====
/-
  The second grid pass (rescale by the in-degree factor, add the bias, clamp at zero) read as ONE map of whole arrays.
  At grid point `t` the pass loads rows `5000 t … 5000 t + 4999` of the aggregate `a` and of the column `s`, and the
  whole bias row `b`, and stores `max (a (v, j) * s v + b j) 0` into the same rows of the result. The ten row blocks
  tile the 50000 rows, so after the pass the result array is `NodeFns.rescaleBiasRelu1 a s b` everywhere.
-/
import proofs.«135889_j65687229826124_1_alg».proof.Proof.Gen.KernelIdeal.Frame
import proofs.«135889_j65687229826124_1_alg».proof.Proof.NodeFns
import Idealize.ShloMosaic.Lib.Pipeline.Value
import Idealize.ShloMosaic.Lib.ValueIdx

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored value at row `p`, column `q` of the block, from the three loaded blocks. -/
theorem pay_apply (x0 : Vec Ideal S5000x128 .f32) (x1 : Vec Ideal S5000x1 .f32) (x2 : Vec Ideal S1x128 .f32)
    (p : Fin 5000) (q : Fin 128) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  simp only [Idealize.ShloMosaic.shapeCast_self]
  show max (x0 (ix2 p q) * broadcastTo S5000x128 x1 broadcasts_S5000x1_S5000x128 (ix2 p q)
      + broadcastTo S5000x128 x2 broadcasts_S1x128_S5000x128 (ix2 p q)) _ = _
  rw [broadcastTo_apply x1 broadcasts_S5000x1_S5000x128 (ix2 p q) (ix2 p (0 : Fin 1)) (fun a => match a with
        | ⟨0, _⟩ => by show p.val = if (5000 : Nat) = 1 then 0 else p.val; rw [if_neg (by decide)]
        | ⟨1, _⟩ => by show 0 = if (1 : Nat) = 1 then 0 else q.val; rw [if_pos rfl]),
      broadcastTo_apply x2 broadcasts_S1x128_S5000x128 (ix2 p q) (ix2 (0 : Fin 1) q) (fun a => match a with
        | ⟨0, _⟩ => by show 0 = if (1 : Nat) = 1 then 0 else p.val; rw [if_pos rfl]
        | ⟨1, _⟩ => by show q.val = if (128 : Nat) = 1 then 0 else q.val; rw [if_neg (by decide)])]
  rfl

/-- The printed index maps over the ten grid points: the row-block windows sit at block `(t, 0)`, the bias row at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Row `p` of the aggregate's block at point `t` is row `5000 t + p` of the array. -/
theorem blk0_apply (c : Dev nD) (t : Fin cfg1.N) (p : Fin 5000) (q : Fin 128) (k : S50000x128.Idx)
    (hk0 : (k 0).val = 5000 * t.val + p.val) (hk1 : (k 1).val = q.val) :
    (iblk1 V c 0 t : Vec Ideal S5000x128 .f32) (ix2 p q) = (V c main_v22 : S50000x128.Idx → Elt Ideal .f32) k := by
  obtain ⟨e0, e1, -⟩ := idx_facts t
  unfold iblk1
  rw [View.read_apply]
  show V c main_v22 _ = V c main_v22 _
  congr 1
  funext a
  apply Fin.ext
  match a with
  | ⟨0, _⟩ => show win1_0.index t 0 * 5000 + 1 * p.val = (k 0).val; rw [e0, hk0]; omega
  | ⟨1, _⟩ => show win1_0.index t 1 * 128 + 1 * q.val = (k 1).val; rw [e1, hk1]; omega

/-- Row `p` of the factor column's block at point `t` is row `5000 t + p` of the column. -/
theorem blk1_apply (c : Dev nD) (t : Fin cfg1.N) (p : Fin 5000) (k : S50000x1.Idx)
    (hk0 : (k 0).val = 5000 * t.val + p.val) :
    (iblk1 V c 1 t : Vec Ideal S5000x1 .f32) (ix2 p (0 : Fin 1)) = (V c main_v23 : S50000x1.Idx → Elt Ideal .f32) k := by
  obtain ⟨-, -, e0, e1, -⟩ := idx_facts t
  unfold iblk1
  rw [View.read_apply]
  show V c main_v23 _ = V c main_v23 _
  congr 1
  funext a
  apply Fin.ext
  have hk1 : (k 1).val = 0 := by have h1 : (k 1).val < 1 := (k 1).isLt; omega
  match a with
  | ⟨0, _⟩ => show win1_1.index t 0 * 5000 + 1 * p.val = (k 0).val; rw [e0, hk0]; omega
  | ⟨1, _⟩ => show win1_1.index t 1 * 1 + 1 * 0 = (k 1).val; rw [e1, hk1]

/-- The bias row's block at every point is the whole row. -/
theorem blk2_apply (c : Dev nD) (t : Fin cfg1.N) (q : Fin 128) :
    (iblk1 V c 2 t : Vec Ideal S1x128 .f32) (ix2 (0 : Fin 1) q) = (V c main_v24 : S1x128.Idx → Elt Ideal .f32) (ix2 (0 : Fin 1) q) := by
  obtain ⟨-, -, -, -, e0, e1, -⟩ := idx_facts t
  unfold iblk1
  rw [View.read_apply]
  show V c main_v24 _ = V c main_v24 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- What point `t` writes back is block `t` of the whole-array map. -/
theorem flushed_eq (c : Dev nD) (t : Fin cfg1.N) :
    (dat1 (F := Ideal) V c).flushed 3 t
      = ((cfg1.win 3).blk t).view.read (Elt Ideal) (NodeFns.rescaleBiasRelu1 (V c main_v22) (V c main_v23) (V c main_v24)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨-, -, -, -, -, -, e0, e1, ht⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = NodeFns.rescaleBiasRelu1 (V c main_v22) (V c main_v23) (V c main_v24) (((cfg1.win 3).blk t).view.emb (ix2 p q))
  refine (pay_apply (iblk1 V c 0 t) (iblk1 V c 1 t) (iblk1 V c 2 t) p q).trans ?_
  have h0 : ((((cfg1.win 3).blk t).view.emb (ix2 p q)) 0).val = 5000 * t.val + p.val := by
    show win1_3.index t 0 * 5000 + 1 * p.val = _; rw [e0]; omega
  have h1 : ((((cfg1.win 3).blk t).view.emb (ix2 p q)) 1).val = q.val := by
    show win1_3.index t 1 * 128 + 1 * q.val = _; rw [e1]; omega
  rw [blk0_apply V c t p q (((cfg1.win 3).blk t).view.emb (ix2 p q)) h0 h1,
    blk1_apply V c t p (ix2 (NodeFns.node (((cfg1.win 3).blk t).view.emb (ix2 p q))) (0 : Fin 1)) h0,
    blk2_apply V c t q]
  unfold NodeFns.rescaleBiasRelu1
  have hq : NodeFns.feat (((cfg1.win 3).blk t).view.emb (ix2 p q)) = q := Fin.ext h1
  rw [hq]

/-- Every index of the result lies in the block of the point its row selects. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e0, e1, -⟩ := idx_facts t
  refine ⟨t, flush1_3 t, ?_⟩
  show i ∈ ((View.whole main_v25).slice (win1_3.rect t)).set
  rw [View.set_slice_whole, Rect.mem_set_unit]
  intro a
  match a with
  | ⟨0, _⟩ =>
    show win1_3.index t 0 * 5000 ≤ (i 0).val ∧ (i 0).val < win1_3.index t 0 * 5000 + 5000
    rw [e0]; show (i 0).val / 5000 * 5000 ≤ (i 0).val ∧ (i 0).val < (i 0).val / 5000 * 5000 + 5000; omega
  | ⟨1, _⟩ =>
    show win1_3.index t 1 * 128 ≤ (i 1).val ∧ (i 1).val < win1_3.index t 1 * 128 + 128
    rw [e1]; omega

/-- After the pass the result array is the whole-array map of the arrays the pass found. -/
theorem arr (c : Dev nD) :
    (dat1 (F := Ideal) V c).arrAt 3 cfg1.N = NodeFns.rescaleBiasRelu1 (V c main_v22) (V c main_v23) (V c main_v24) :=
  (dat1 (F := Ideal) V c).arrAt_eq_of_cover 3 _ (fun t _ => flushed_eq V c t) (cover)

end Cert.KernelIdeal.Region1

end
-- ==== Proof.Region2.lean ====
/-
  The third grid pass (scale each node's hidden row by the node's factor, then multiply by the second weight matrix)
  read as ONE map of whole arrays. At grid point t the pass loads rows 5000 t … 5000 t + 4999 of the hidden features x
  and of the factor column s, and the whole weight matrix w, and stores ∑ k, (x (v, k) * s v) * w (k, j) into the same
  rows of the result. The ten row blocks tile the 50000 rows, so after the pass the result array is
  NodeFns.scaleProject2 x s w everywhere.
-/
import proofs.«135889_j65687229826124_1_alg».proof.Proof.Gen.KernelIdeal.Frame
import proofs.«135889_j65687229826124_1_alg».proof.Proof.NodeFns
import Idealize.ShloMosaic.Lib.Pipeline.Value
import Idealize.ShloMosaic.Lib.ValueIdx
import Idealize.ShloMosaic.PureOps.Ideal.Laws

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The left operand's row coordinate in the product is the result's row. -/
theorem lhs_dot_0 (i : S5000x64.Idx) (r : dot_S5000x128_S128x64_S5000x64_1_0_0_1_n_n.contr.Idx) :
    (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted index. -/
theorem lhs_dot_1 (i : S5000x64.Idx) (r : dot_S5000x128_S128x64_S5000x64_1_0_0_1_n_n.contr.Idx) :
    (dot_S5000x128_S128x64_S5000x64_1_0_0_1_n_n.lhsIdx i r 1).val = (r ⟨0, by decide⟩).val :=
  dot_S5000x128_S128x64_S5000x64_1_0_0_1_n_n.lhsIdx_val_of_single rfl i r
/-- The right operand's row coordinate is the contracted index. -/
theorem rhs_dot_0 (i : S5000x64.Idx) (r : dot_S5000x128_S128x64_S5000x64_1_0_0_1_n_n.contr.Idx) :
    (dot_S5000x128_S128x64_S5000x64_1_0_0_1_n_n.rhsIdx i r 0).val = (r ⟨0, by decide⟩).val :=
  dot_S5000x128_S128x64_S5000x64_1_0_0_1_n_n.rhsIdx_val_of_single rfl i r
/-- The right operand's column coordinate is the result's column. -/
theorem rhs_dot_1 (i : S5000x64.Idx) (r : dot_S5000x128_S128x64_S5000x64_1_0_0_1_n_n.contr.Idx) :
    (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The stored value at row p, column q of the block, from the three loaded blocks: the product into a zero
    accumulator is the plain sum over the 128 contracted features; rounding to the narrower format is the identity at
    the extended reals. -/
theorem pay_apply (x0 : Vec Ideal S5000x128 .f32) (x1 : Vec Ideal S5000x1 .f32) (x2 : Vec Ideal S128x64 .f32)
    (p : Fin 5000) (q : Fin 64) :
    k2_pay1 (F := Ideal) x0 x1 x2 (ix2 p q)
      = ∑ k : Fin 128, (x0 (ix2 p k) * x1 (ix2 p (0 : Fin 1))) * x2 (ix2 k q) := by
  unfold k2_pay1
  simp only [Idealize.ShloMosaic.shapeCast_self]
  show FloatOps.matmul dot_S5000x128_S128x64_S5000x64_1_0_0_1_n_n none
      (truncf .bf16 (mulf x0 (broadcastTo S5000x128 x1 broadcasts_S5000x1_S5000x128)) bitsLt_bf16_f32)
      (truncf .bf16 x2 bitsLt_bf16_f32) (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]
  show (x0 (ix2 p k) * broadcastTo S5000x128 x1 broadcasts_S5000x1_S5000x128 (ix2 p k)) * x2 (ix2 k q) = _
  rw [broadcastTo_apply x1 broadcasts_S5000x1_S5000x128 (ix2 p k) (ix2 p (0 : Fin 1)) (fun a => match a with
        | ⟨0, _⟩ => by show p.val = if (5000 : Nat) = 1 then 0 else p.val; rw [if_neg (by decide)]
        | ⟨1, _⟩ => by show 0 = if (1 : Nat) = 1 then 0 else k.val; rw [if_pos rfl])]

/-- The printed index maps over the ten grid points: the row-block windows sit at block (t, 0), the weight matrix at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- Row p of the feature block at point t is row 5000 t + p of the feature array. -/
theorem blk0_apply (c : Dev nD) (t : Fin cfg2.N) (p : Fin 5000) (k : Fin 128) (i : S50000x128.Idx)
    (hi0 : (i 0).val = 5000 * t.val + p.val) (hi1 : (i 1).val = k.val) :
    (iblk2 V c 0 t : Vec Ideal S5000x128 .f32) (ix2 p k) = (V c main_v25 : S50000x128.Idx → Elt Ideal .f32) i := by
  obtain ⟨e0, e1, -⟩ := idx_facts t
  unfold iblk2
  rw [View.read_apply]
  show V c main_v25 _ = V c main_v25 _
  congr 1
  funext a
  apply Fin.ext
  match a with
  | ⟨0, _⟩ => show win2_0.index t 0 * 5000 + 1 * p.val = (i 0).val; rw [e0, hi0]; omega
  | ⟨1, _⟩ => show win2_0.index t 1 * 128 + 1 * k.val = (i 1).val; rw [e1, hi1]; omega

/-- Row p of the factor column's block at point t is row 5000 t + p of the column. -/
theorem blk1_apply (c : Dev nD) (t : Fin cfg2.N) (p : Fin 5000) (i : S50000x1.Idx)
    (hi0 : (i 0).val = 5000 * t.val + p.val) :
    (iblk2 V c 1 t : Vec Ideal S5000x1 .f32) (ix2 p (0 : Fin 1)) = (V c main_v26 : S50000x1.Idx → Elt Ideal .f32) i := by
  obtain ⟨-, -, e0, e1, -⟩ := idx_facts t
  unfold iblk2
  rw [View.read_apply]
  show V c main_v26 _ = V c main_v26 _
  congr 1
  funext a
  apply Fin.ext
  have hi1 : (i 1).val = 0 := by have h1 : (i 1).val < 1 := (i 1).isLt; omega
  match a with
  | ⟨0, _⟩ => show win2_1.index t 0 * 5000 + 1 * p.val = (i 0).val; rw [e0, hi0]; omega
  | ⟨1, _⟩ => show win2_1.index t 1 * 1 + 1 * 0 = (i 1).val; rw [e1, hi1]

/-- The weight matrix's block at every point is the whole matrix. -/
theorem blk2_apply (c : Dev nD) (t : Fin cfg2.N) (k : Fin 128) (q : Fin 64) :
    (iblk2 V c 2 t : Vec Ideal S128x64 .f32) (ix2 k q) = (V c main_arg3 : S128x64.Idx → Elt Ideal .f32) (ix2 k q) := by
  obtain ⟨-, -, -, -, e0, e1, -⟩ := idx_facts t
  unfold iblk2
  rw [View.read_apply]
  show V c main_arg3 _ = V c main_arg3 _
  congr 1
  funext a
  apply Fin.ext
  match a with
  | ⟨0, _⟩ => show win2_2.index t 0 * 128 + 1 * k.val = k.val; rw [e0]; omega
  | ⟨1, _⟩ => show win2_2.index t 1 * 64 + 1 * q.val = q.val; rw [e1]; omega

/-- What point t writes back is block t of the whole-array map. -/
theorem flushed_eq (c : Dev nD) (t : Fin cfg2.N) :
    (dat2 (F := Ideal) V c).flushed 3 t
      = ((cfg2.win 3).blk t).view.read (Elt Ideal) (NodeFns.scaleProject2 (V c main_v25) (V c main_v26) (V c main_arg3)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x64) hz]
  obtain ⟨-, -, -, -, -, -, e0, e1, ht⟩ := idx_facts t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
    = NodeFns.scaleProject2 (V c main_v25) (V c main_v26) (V c main_arg3) (((cfg2.win 3).blk t).view.emb (ix2 p q))
  refine (pay_apply (iblk2 V c 0 t) (iblk2 V c 1 t) (iblk2 V c 2 t) p q).trans ?_
  have h0 : ((((cfg2.win 3).blk t).view.emb (ix2 p q)) 0).val = 5000 * t.val + p.val := by
    show win2_3.index t 0 * 5000 + 1 * p.val = _; rw [e0]; omega
  have h1 : ((((cfg2.win 3).blk t).view.emb (ix2 p q)) 1).val = q.val := by
    show win2_3.index t 1 * 64 + 1 * q.val = _; rw [e1]; omega
  have hq : NodeFns.feat (((cfg2.win 3).blk t).view.emb (ix2 p q)) = q := Fin.ext h1
  unfold NodeFns.scaleProject2
  show (∑ k : Fin 128, _) = ∑ k : Fin 128, _
  refine Finset.sum_congr rfl fun k _ => ?_
  rw [blk0_apply V c t p k (ix2 (NodeFns.node (((cfg2.win 3).blk t).view.emb (ix2 p q))) k) h0 rfl,
    blk1_apply V c t p (ix2 (NodeFns.node (((cfg2.win 3).blk t).view.emb (ix2 p q))) (0 : Fin 1)) h0,
    blk2_apply V c t k q, hq]

/-- Every index of the result lies in the block of the point its row selects. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, e0, e1, -⟩ := idx_facts t
  refine ⟨t, flush2_3 t, ?_⟩
  show i ∈ ((View.whole main_v27).slice (win2_3.rect t)).set
  rw [View.set_slice_whole, Rect.mem_set_unit]
  intro a
  match a with
  | ⟨0, _⟩ =>
    show win2_3.index t 0 * 5000 ≤ (i 0).val ∧ (i 0).val < win2_3.index t 0 * 5000 + 5000
    rw [e0]; show (i 0).val / 5000 * 5000 ≤ (i 0).val ∧ (i 0).val < (i 0).val / 5000 * 5000 + 5000; omega
  | ⟨1, _⟩ =>
    show win2_3.index t 1 * 64 ≤ (i 1).val ∧ (i 1).val < win2_3.index t 1 * 64 + 64
    rw [e1]; omega

/-- After the pass the result array is the whole-array map of the arrays the pass found. -/
theorem arr (c : Dev nD) :
    (dat2 (F := Ideal) V c).arrAt 3 cfg2.N = NodeFns.scaleProject2 (V c main_v25) (V c main_v26) (V c main_arg3) :=
  (dat2 (F := Ideal) V c).arrAt_eq_of_cover 3 _ (fun t _ => flushed_eq V c t) (cover)

end Cert.KernelIdeal.Region2

end
-- ==== Proof.Region3.lean ====
/-
  The fourth grid pass (rescale by the in-degree factor, add the bias; no clamp) read as ONE map of whole arrays.
  At grid point `t` the pass loads rows `5000 t … 5000 t + 4999` of the aggregate `a` and of the column `s`, and the
  whole bias row `b`, and stores `a (v, j) * s v + b j` into the same rows of the result. The ten row blocks tile the
  50000 rows, so after the pass the result array is `NodeFns.rescaleBias2 a s b` everywhere.
-/
import proofs.«135889_j65687229826124_1_alg».proof.Proof.Gen.KernelIdeal.Frame
import proofs.«135889_j65687229826124_1_alg».proof.Proof.NodeFns
import Idealize.ShloMosaic.Lib.Pipeline.Value
import Idealize.ShloMosaic.Lib.ValueIdx

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored value at row `p`, column `q` of the block, from the three loaded blocks. -/
theorem pay_apply (x0 : Vec Ideal S5000x64 .f32) (x1 : Vec Ideal S5000x1 .f32) (x2 : Vec Ideal S1x64 .f32)
    (p : Fin 5000) (q : Fin 64) :
    k3_pay1 (F := Ideal) x0 x1 x2 (ix2 p q)
      = x0 (ix2 p q) * x1 (ix2 p (0 : Fin 1)) + x2 (ix2 (0 : Fin 1) q) := by
  unfold k3_pay1
  simp only [Idealize.ShloMosaic.shapeCast_self]
  show x0 (ix2 p q) * broadcastTo S5000x64 x1 broadcasts_S5000x1_S5000x64 (ix2 p q)
      + broadcastTo S5000x64 x2 broadcasts_S1x64_S5000x64 (ix2 p q) = _
  rw [broadcastTo_apply x1 broadcasts_S5000x1_S5000x64 (ix2 p q) (ix2 p (0 : Fin 1)) (fun a => match a with
        | ⟨0, _⟩ => by show p.val = if (5000 : Nat) = 1 then 0 else p.val; rw [if_neg (by decide)]
        | ⟨1, _⟩ => by show 0 = if (1 : Nat) = 1 then 0 else q.val; rw [if_pos rfl]),
      broadcastTo_apply x2 broadcasts_S1x64_S5000x64 (ix2 p q) (ix2 (0 : Fin 1) q) (fun a => match a with
        | ⟨0, _⟩ => by show 0 = if (1 : Nat) = 1 then 0 else p.val; rw [if_pos rfl]
        | ⟨1, _⟩ => by show q.val = if (64 : Nat) = 1 then 0 else q.val; rw [if_neg (by decide)])]

/-- The printed index maps over the ten grid points: the row-block windows sit at block `(t, 0)`, the bias row at `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

/-- Row `p` of the aggregate's block at point `t` is row `5000 t + p` of the array. -/
theorem blk0_apply (c : Dev nD) (t : Fin cfg3.N) (p : Fin 5000) (q : Fin 64) (k : S50000x64.Idx)
    (hk0 : (k 0).val = 5000 * t.val + p.val) (hk1 : (k 1).val = q.val) :
    (iblk3 V c 0 t : Vec Ideal S5000x64 .f32) (ix2 p q) = (V c main_v37 : S50000x64.Idx → Elt Ideal .f32) k := by
  obtain ⟨e0, e1, -⟩ := idx_facts t
  unfold iblk3
  rw [View.read_apply]
  show V c main_v37 _ = V c main_v37 _
  congr 1
  funext a
  apply Fin.ext
  match a with
  | ⟨0, _⟩ => show win3_0.index t 0 * 5000 + 1 * p.val = (k 0).val; rw [e0, hk0]; omega
  | ⟨1, _⟩ => show win3_0.index t 1 * 64 + 1 * q.val = (k 1).val; rw [e1, hk1]; omega

/-- Row `p` of the factor column's block at point `t` is row `5000 t + p` of the column. -/
theorem blk1_apply (c : Dev nD) (t : Fin cfg3.N) (p : Fin 5000) (k : S50000x1.Idx)
    (hk0 : (k 0).val = 5000 * t.val + p.val) :
    (iblk3 V c 1 t : Vec Ideal S5000x1 .f32) (ix2 p (0 : Fin 1)) = (V c main_v38 : S50000x1.Idx → Elt Ideal .f32) k := by
  obtain ⟨-, -, e0, e1, -⟩ := idx_facts t
  unfold iblk3
  rw [View.read_apply]
  show V c main_v38 _ = V c main_v38 _
  congr 1
  funext a
  apply Fin.ext
  have hk1 : (k 1).val = 0 := by have h1 : (k 1).val < 1 := (k 1).isLt; omega
  match a with
  | ⟨0, _⟩ => show win3_1.index t 0 * 5000 + 1 * p.val = (k 0).val; rw [e0, hk0]; omega
  | ⟨1, _⟩ => show win3_1.index t 1 * 1 + 1 * 0 = (k 1).val; rw [e1, hk1]

/-- The bias row's block at every point is the whole row. -/
theorem blk2_apply (c : Dev nD) (t : Fin cfg3.N) (q : Fin 64) :
    (iblk3 V c 2 t : Vec Ideal S1x64 .f32) (ix2 (0 : Fin 1) q) = (V c main_v39 : S1x64.Idx → Elt Ideal .f32) (ix2 (0 : Fin 1) q) := by
  obtain ⟨-, -, -, -, e0, e1, -⟩ := idx_facts t
  unfold iblk3
  rw [View.read_apply]
  show V c main_v39 _ = V c main_v39 _
  congr 1
  funext a
  apply Fin.ext
  match a with
  | ⟨0, _⟩ => show win3_2.index t 0 * 1 + 1 * 0 = 0; rw [e0]
  | ⟨1, _⟩ => show win3_2.index t 1 * 64 + 1 * q.val = q.val; rw [e1]; omega

/-- What point `t` writes back is block `t` of the whole-array map. -/
theorem flushed_eq (c : Dev nD) (t : Fin cfg3.N) :
    (dat3 (F := Ideal) V c).flushed 3 t
      = ((cfg3.win 3).blk t).view.read (Elt Ideal) (NodeFns.rescaleBias2 (V c main_v37) (V c main_v38) (V c main_v39)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  obtain ⟨-, -, -, -, -, -, e0, e1, ht⟩ := idx_facts t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (ix2 p q)
    = NodeFns.rescaleBias2 (V c main_v37) (V c main_v38) (V c main_v39) (((cfg3.win 3).blk t).view.emb (ix2 p q))
  refine (pay_apply (iblk3 V c 0 t) (iblk3 V c 1 t) (iblk3 V c 2 t) p q).trans ?_
  have h0 : ((((cfg3.win 3).blk t).view.emb (ix2 p q)) 0).val = 5000 * t.val + p.val := by
    show win3_3.index t 0 * 5000 + 1 * p.val = _; rw [e0]; omega
  have h1 : ((((cfg3.win 3).blk t).view.emb (ix2 p q)) 1).val = q.val := by
    show win3_3.index t 1 * 64 + 1 * q.val = _; rw [e1]; omega
  rw [blk0_apply V c t p q (((cfg3.win 3).blk t).view.emb (ix2 p q)) h0 h1,
    blk1_apply V c t p (ix2 (NodeFns.node (((cfg3.win 3).blk t).view.emb (ix2 p q))) (0 : Fin 1)) h0,
    blk2_apply V c t q]
  unfold NodeFns.rescaleBias2
  have hq : NodeFns.feat (((cfg3.win 3).blk t).view.emb (ix2 p q)) = q := Fin.ext h1
  rw [hq]

/-- Every index of the result lies in the block of the point its row selects. -/
theorem cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨-, -, -, -, -, -, e0, e1, -⟩ := idx_facts t
  refine ⟨t, flush3_3 t, ?_⟩
  show i ∈ ((View.whole main_v40).slice (win3_3.rect t)).set
  rw [View.set_slice_whole, Rect.mem_set_unit]
  intro a
  match a with
  | ⟨0, _⟩ =>
    show win3_3.index t 0 * 5000 ≤ (i 0).val ∧ (i 0).val < win3_3.index t 0 * 5000 + 5000
    rw [e0]; show (i 0).val / 5000 * 5000 ≤ (i 0).val ∧ (i 0).val < (i 0).val / 5000 * 5000 + 5000; omega
  | ⟨1, _⟩ =>
    show win3_3.index t 1 * 64 ≤ (i 1).val ∧ (i 1).val < win3_3.index t 1 * 64 + 64
    rw [e1]; omega

/-- After the pass the result array is the whole-array map of the arrays the pass found. -/
theorem arr (c : Dev nD) :
    (dat3 (F := Ideal) V c).arrAt 3 cfg3.N = NodeFns.rescaleBias2 (V c main_v37) (V c main_v38) (V c main_v39) :=
  (dat3 (F := Ideal) V c).arrAt_eq_of_cover 3 _ (fun t _ => flushed_eq V c t) (cover)

end Cert.KernelIdeal.Region3

end
-- ==== Proof.Region4.lean ====
/-
  The fifth grid pass (project the 64 hidden features to the 2 outputs, add the bias) read as ONE map of whole arrays.
  At grid point `t` the pass loads rows `5000 t … 5000 t + 4999` of the hidden features `h`, the whole weight
  matrix `w` and the whole bias row `b`, and stores `(∑ k, h (v, k) * w (k, j)) + b j` into the same rows of the
  result: the block product into a zero accumulator is, at the extended reals, the plain sum over the contracted
  feature axis, and the narrowing of the operands before the product is the identity there. The ten row blocks tile
  the 50000 rows, so after the pass the result array is `NodeFns.projectBias h w b` everywhere.
-/
import proofs.«135889_j65687229826124_1_alg».proof.Proof.Gen.KernelIdeal.Frame
import proofs.«135889_j65687229826124_1_alg».proof.Proof.NodeFns
import Idealize.ShloMosaic.Lib.Pipeline.Value
import Idealize.ShloMosaic.Lib.ValueIdx
import Idealize.ShloMosaic.PureOps.Ideal.Laws

noncomputable section

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The left operand's row coordinate at output index `i` is `i`'s row (axis 0 is the kept axis). -/
theorem lhs_dot_0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
/-- The left operand's column coordinate is the contraction coordinate (axis 1 is contracted). -/
theorem lhs_dot_1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
/-- The right operand's row coordinate is the contraction coordinate (axis 0 is contracted). -/
theorem rhs_dot_0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
/-- The right operand's column coordinate at output index `i` is `i`'s column (axis 1 is the kept axis). -/
theorem rhs_dot_1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The block product into a zero accumulator at row `p`, column `q`: the sum over the 64 contracted features. -/
theorem dot_apply (a : FVec Ideal S5000x64 .bf16) (b : FVec Ideal S64x2 .bf16) (p : Fin 5000) (q : Fin 2) :
    FloatOps.matmul dot_S5000x64_S64x2_S5000x2_1_0_0_1_n_n none a b (constant S5000x2 .f32 0x00000000#32) (ix2 p q)
      = ∑ k : Fin 64, a (ix2 p k) * b (ix2 k q) := by
  rw [Ideal.matmul_constant_zero_apply, ← Equiv.sum_comp (ValueIdx.contrEquiv1 dot_S5000x64_S64x2_S5000x2_1_0_0_1_n_n 64 rfl rfl).symm]
  refine Finset.sum_congr rfl fun k _ => ?_
  have hk := ValueIdx.contrEquiv1_symm_val dot_S5000x64_S64x2_S5000x2_1_0_0_1_n_n 64 rfl rfl k
  have el : dot_S5000x64_S64x2_S5000x2_1_0_0_1_n_n.lhsIdx (ix2 p q) ((ValueIdx.contrEquiv1 dot_S5000x64_S64x2_S5000x2_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x2_S5000x2_1_0_0_1_n_n.rhsIdx (ix2 p q) ((ValueIdx.contrEquiv1 dot_S5000x64_S64x2_S5000x2_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The stored value at row `p`, column `q` of the block, from the three loaded blocks. -/
theorem pay_apply (x0 : Vec Ideal S5000x64 .f32) (x1 : Vec Ideal S64x2 .f32) (x2 : Vec Ideal S1x2 .f32)
    (p : Fin 5000) (q : Fin 2) :
    k4_pay1 (F := Ideal) x0 x1 x2 (ix2 p q)
      = (∑ k : Fin 64, x0 (ix2 p k) * x1 (ix2 k q)) + x2 (ix2 (0 : Fin 1) q) := by
  unfold k4_pay1
  simp only [Idealize.ShloMosaic.shapeCast_self, matmul]
  show (FloatOps.matmul dot_S5000x64_S64x2_S5000x2_1_0_0_1_n_n none (truncf .bf16 x0 bitsLt_bf16_f32 : FVec Ideal S5000x64 .bf16)
        (truncf .bf16 x1 bitsLt_bf16_f32 : FVec Ideal S64x2 .bf16) (constant S5000x2 .f32 0x00000000#32) (ix2 p q) : Ideal .f32)
      + broadcastTo S5000x2 x2 broadcasts_S1x2_S5000x2 (ix2 p q) = _
  rw [dot_apply,
      broadcastTo_apply x2 broadcasts_S1x2_S5000x2 (ix2 p q) (ix2 (0 : Fin 1) q) (fun a => match a with
        | ⟨0, _⟩ => by show 0 = if (1 : Nat) = 1 then 0 else p.val; rw [if_pos rfl]
        | ⟨1, _⟩ => by show q.val = if (2 : Nat) = 1 then 0 else q.val; rw [if_neg (by decide)])]
  rfl

/-- The printed index maps over the ten grid points: the two row-block windows sit at block `(t, 0)`, the weights and
    the bias row at `(0, 0)`. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 10 :=
  (by decide +kernel : ∀ t : Fin grid4.N, _)

/-- Row `p` of the hidden features' block at point `t` is row `5000 t + p` of the array. -/
theorem blk0_apply (c : Dev nD) (t : Fin cfg4.N) (p : Fin 5000) (k : Fin 64) (i : S50000x64.Idx)
    (hi0 : (i 0).val = 5000 * t.val + p.val) (hi1 : (i 1).val = k.val) :
    (iblk4 V c 0 t : Vec Ideal S5000x64 .f32) (ix2 p k) = (V c main_v40 : S50000x64.Idx → Elt Ideal .f32) i := by
  obtain ⟨e0, e1, -⟩ := idx_facts t
  unfold iblk4
  rw [View.read_apply]
  show V c main_v40 _ = V c main_v40 _
  congr 1
  funext a
  apply Fin.ext
  match a with
  | ⟨0, _⟩ => show win4_0.index t 0 * 5000 + 1 * p.val = (i 0).val; rw [e0, hi0]; omega
  | ⟨1, _⟩ => show win4_0.index t 1 * 64 + 1 * k.val = (i 1).val; rw [e1, hi1]; omega

/-- The weights' block at every point is the whole matrix. -/
theorem blk1_apply (c : Dev nD) (t : Fin cfg4.N) (k : Fin 64) (q : Fin 2) :
    (iblk4 V c 1 t : Vec Ideal S64x2 .f32) (ix2 k q) = (V c main_arg5 : S64x2.Idx → Elt Ideal .f32) (ix2 k q) := by
  obtain ⟨-, -, e0, e1, -⟩ := idx_facts t
  unfold iblk4
  rw [View.read_apply]
  show V c main_arg5 _ = V c main_arg5 _
  congr 1
  funext a
  apply Fin.ext
  match a with
  | ⟨0, _⟩ => show win4_1.index t 0 * 64 + 1 * k.val = k.val; rw [e0]; omega
  | ⟨1, _⟩ => show win4_1.index t 1 * 2 + 1 * q.val = q.val; rw [e1]; omega

/-- The bias row's block at every point is the whole row. -/
theorem blk2_apply (c : Dev nD) (t : Fin cfg4.N) (q : Fin 2) :
    (iblk4 V c 2 t : Vec Ideal S1x2 .f32) (ix2 (0 : Fin 1) q) = (V c main_v41 : S1x2.Idx → Elt Ideal .f32) (ix2 (0 : Fin 1) q) := by
  obtain ⟨-, -, -, -, e0, e1, -⟩ := idx_facts t
  unfold iblk4
  rw [View.read_apply]
  show V c main_v41 _ = V c main_v41 _
  congr 1
  funext a
  apply Fin.ext
  match a with
  | ⟨0, _⟩ => show win4_2.index t 0 * 1 + 1 * 0 = 0; rw [e0]
  | ⟨1, _⟩ => show win4_2.index t 1 * 2 + 1 * q.val = q.val; rw [e1]; omega

/-- What point `t` writes back is block `t` of the whole-array map. -/
theorem flushed_eq (c : Dev nD) (t : Fin cfg4.N) :
    (dat4 (F := Ideal) V c).flushed 3 t
      = ((cfg4.win 3).blk t).view.read (Elt Ideal) (NodeFns.projectBias (V c main_v40) (V c main_arg5) (V c main_v41)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x2) hz, View.ld_unit_zero (S := S1x2) hz]
  obtain ⟨-, -, -, -, -, -, e0, e1, ht⟩ := idx_facts t
  funext j
  obtain ⟨p, q, rfl⟩ : ∃ (p : Fin 5000) (q : Fin 2), j = ix2 p q := ⟨j 0, j 1, eq_ix2 j⟩
  show k4_pay1 (F := Ideal) (iblk4 V c 0 t) (iblk4 V c 1 t) (iblk4 V c 2 t) (ix2 p q)
    = NodeFns.projectBias (V c main_v40) (V c main_arg5) (V c main_v41) (((cfg4.win 3).blk t).view.emb (ix2 p q))
  refine (pay_apply (iblk4 V c 0 t) (iblk4 V c 1 t) (iblk4 V c 2 t) p q).trans ?_
  have h0 : ((((cfg4.win 3).blk t).view.emb (ix2 p q)) 0).val = 5000 * t.val + p.val := by
    show win4_3.index t 0 * 5000 + 1 * p.val = _; rw [e0]; omega
  have h1 : ((((cfg4.win 3).blk t).view.emb (ix2 p q)) 1).val = q.val := by
    show win4_3.index t 1 * 2 + 1 * q.val = _; rw [e1]; omega
  have hq : NodeFns.feat (((cfg4.win 3).blk t).view.emb (ix2 p q)) = q := Fin.ext h1
  unfold NodeFns.projectBias
  rw [hq, blk2_apply V c t q]
  congr 1
  refine Finset.sum_congr rfl fun k _ => ?_
  rw [blk0_apply V c t p k (ix2 (NodeFns.node (((cfg4.win 3).blk t).view.emb (ix2 p q))) k) h0 rfl,
    blk1_apply V c t k q]

/-- Every index of the result lies in the block of the point its row selects. -/
theorem cover (i : S50000x2.Idx) :
    ∃ t : Fin cfg4.N, (cfg4.win 3).flush t = true ∧ i ∈ ((cfg4.win 3).blk t).view.set := by
  have hi0 : (i 0).val < 50000 := (i 0).isLt
  have hi1 : (i 1).val < 2 := (i 1).isLt
  have hN : cfg4.N = 10 := N_4
  let t : Fin cfg4.N := ⟨(i 0).val / 5000, by rw [hN]; omega⟩
  obtain ⟨-, -, -, -, -, -, e0, e1, -⟩ := idx_facts t
  refine ⟨t, flush4_3 t, ?_⟩
  show i ∈ ((View.whole main_v42).slice (win4_3.rect t)).set
  rw [View.set_slice_whole, Rect.mem_set_unit]
  intro a
  match a with
  | ⟨0, _⟩ =>
    show win4_3.index t 0 * 5000 ≤ (i 0).val ∧ (i 0).val < win4_3.index t 0 * 5000 + 5000
    rw [e0]; show (i 0).val / 5000 * 5000 ≤ (i 0).val ∧ (i 0).val < (i 0).val / 5000 * 5000 + 5000; omega
  | ⟨1, _⟩ =>
    show win4_3.index t 1 * 2 ≤ (i 1).val ∧ (i 1).val < win4_3.index t 1 * 2 + 2
    rw [e1]; omega

/-- After the pass the result array is the whole-array map of the arrays the pass found. -/
theorem arr (c : Dev nD) :
    (dat4 (F := Ideal) V c).arrAt 3 cfg4.N = NodeFns.projectBias (V c main_v40) (V c main_arg5) (V c main_v41) :=
  (dat4 (F := Ideal) V c).arrAt_eq_of_cover 3 _ (fun t _ => flushed_eq V c t) (cover)

end Cert.KernelIdeal.Region4

end
-- ==== Proof.Chain.lean ====
/-
  What each buffer holds at each boundary of the program, from the launch to the return: the arguments stay as
  launched; the two per-node factors are computed once before the first grid pass; each pass leaves its node-wise
  map (NodeFns) of the arrays it found in its result array and every other buffer alone; the host operations between
  passes build the next pass's operands (the sparse aggregate, a factor as a column, a bias as a row). Composed, the
  two result arrays end at Layers.head and Layers.layer2 of the nine arguments.
-/
import proofs.«135889_j65687229826124_1_alg».proof.Proof.Gen.KernelIdeal.Frame
import proofs.«135889_j65687229826124_1_alg».proof.Proof.HostTerms
import proofs.«135889_j65687229826124_1_alg».proof.Proof.Region0
import proofs.«135889_j65687229826124_1_alg».proof.Proof.Region1
import proofs.«135889_j65687229826124_1_alg».proof.Proof.Region2
import proofs.«135889_j65687229826124_1_alg».proof.Proof.Region3
import proofs.«135889_j65687229826124_1_alg».proof.Proof.Region4
import Idealize.ShloMosaic.Lib.StableHlo.Run
import Idealize.ShloMosaic.Lib.Pipeline.Value

noncomputable section

namespace Cert.KernelIdeal.Chain

open Idealize.ShloMosaic Idealize.ShloMosaic.TcCoe Idealize.SL.Sem Idealize.ShloMosaic.StableHlo
open Idealize.ShloMosaic.Pipeline (Dat)
open Cert.KernelIdeal Cert.KernelIdeal.Gen

/-! # The host stretches, over any float instance -/

section Host

variable {F : FTy → Type} [FloatOps F]
variable (m : (ℓ : Loc nD τ sig) → Buf (Elt F) ℓ) (ρ : Dev nD → PrngReg)

/-! ## Before the first pass: the arguments as launched, the two per-node factors -/

theorem w5_arg0 (c : Dev nD) : W5 m ρ c main_arg0 = m ((c : Thread nD τ).loc main_arg0) := by
  show StableHlo.after hostOps0_4 (W4 m ρ c) (Proc.devRef .tc main_arg0) = _
  after_results
theorem w5_arg1 (c : Dev nD) : W5 m ρ c main_arg1 = m ((c : Thread nD τ).loc main_arg1) := by
  show StableHlo.after hostOps0_4 (W4 m ρ c) (Proc.devRef .tc main_arg1) = _
  after_results
theorem w5_arg2 (c : Dev nD) : W5 m ρ c main_arg2 = m ((c : Thread nD τ).loc main_arg2) := by
  show StableHlo.after hostOps0_4 (W4 m ρ c) (Proc.devRef .tc main_arg2) = _
  after_results
theorem w5_arg3 (c : Dev nD) : W5 m ρ c main_arg3 = m ((c : Thread nD τ).loc main_arg3) := by
  show StableHlo.after hostOps0_4 (W4 m ρ c) (Proc.devRef .tc main_arg3) = _
  after_results
theorem w5_arg4 (c : Dev nD) : W5 m ρ c main_arg4 = m ((c : Thread nD τ).loc main_arg4) := by
  show StableHlo.after hostOps0_4 (W4 m ρ c) (Proc.devRef .tc main_arg4) = _
  after_results
theorem w5_arg5 (c : Dev nD) : W5 m ρ c main_arg5 = m ((c : Thread nD τ).loc main_arg5) := by
  show StableHlo.after hostOps0_4 (W4 m ρ c) (Proc.devRef .tc main_arg5) = _
  after_results
theorem w5_arg6 (c : Dev nD) : W5 m ρ c main_arg6 = m ((c : Thread nD τ).loc main_arg6) := by
  show StableHlo.after hostOps0_4 (W4 m ρ c) (Proc.devRef .tc main_arg6) = _
  after_results
theorem w5_arg7 (c : Dev nD) : W5 m ρ c main_arg7 = m ((c : Thread nD τ).loc main_arg7) := by
  show StableHlo.after hostOps0_4 (W4 m ρ c) (Proc.devRef .tc main_arg7) = _
  after_results
theorem w5_arg8 (c : Dev nD) : W5 m ρ c main_arg8 = m ((c : Thread nD τ).loc main_arg8) := by
  show StableHlo.after hostOps0_4 (W4 m ρ c) (Proc.devRef .tc main_arg8) = _
  after_results

theorem w5_v9 (c : Dev nD) : W5 m ρ c main_v9 = HostTerms.invSqrtDeg (m ((c : Thread nD τ).loc main_arg7)) := by
  show StableHlo.after hostOps0_4 (W4 m ρ c) (Proc.devRef .tc main_v9) = _
  after_results; rfl
theorem w5_v10 (c : Dev nD) : W5 m ρ c main_v10 = HostTerms.invSqrtDeg (m ((c : Thread nD τ).loc main_arg8)) := by
  show StableHlo.after hostOps0_4 (W4 m ρ c) (Proc.devRef .tc main_v10) = _
  after_results; rfl
theorem w5_v11 (c : Dev nD) : W5 m ρ c main_v11 = HostTerms.asColumn (HostTerms.invSqrtDeg (m ((c : Thread nD τ).loc main_arg7))) := by
  show StableHlo.after hostOps0_4 (W4 m ρ c) (Proc.devRef .tc main_v11) = _
  after_results; rfl

/-! ## Between the first and the second pass: the sparse aggregate of the messages, the in-factor column, the bias row -/

theorem w7_v22 (c : Dev nD) : W7 m ρ c main_v22
    = HostTerms.aggregate128 (W6 m ρ c main_v12) (W6 m ρ c main_arg7) (W6 m ρ c main_arg8) := by
  show StableHlo.after hostOps1 (W6 m ρ c) (Proc.devRef .tc main_v22) = _
  after_results; rfl
theorem w7_v23 (c : Dev nD) : W7 m ρ c main_v23 = HostTerms.asColumn (W6 m ρ c main_v10) := by
  show StableHlo.after hostOps1 (W6 m ρ c) (Proc.devRef .tc main_v23) = _
  after_results; rfl
theorem w7_v24 (c : Dev nD) : W7 m ρ c main_v24 = HostTerms.asRow128 (W6 m ρ c main_arg2) := by
  show StableHlo.after hostOps1 (W6 m ρ c) (Proc.devRef .tc main_v24) = _
  after_results; rfl
theorem w7_arg3 (c : Dev nD) : W7 m ρ c main_arg3 = W6 m ρ c main_arg3 := by
  show StableHlo.after hostOps1 (W6 m ρ c) (Proc.devRef .tc main_arg3) = _
  after_results
theorem w7_arg4 (c : Dev nD) : W7 m ρ c main_arg4 = W6 m ρ c main_arg4 := by
  show StableHlo.after hostOps1 (W6 m ρ c) (Proc.devRef .tc main_arg4) = _
  after_results
theorem w7_arg5 (c : Dev nD) : W7 m ρ c main_arg5 = W6 m ρ c main_arg5 := by
  show StableHlo.after hostOps1 (W6 m ρ c) (Proc.devRef .tc main_arg5) = _
  after_results
theorem w7_arg6 (c : Dev nD) : W7 m ρ c main_arg6 = W6 m ρ c main_arg6 := by
  show StableHlo.after hostOps1 (W6 m ρ c) (Proc.devRef .tc main_arg6) = _
  after_results
theorem w7_arg7 (c : Dev nD) : W7 m ρ c main_arg7 = W6 m ρ c main_arg7 := by
  show StableHlo.after hostOps1 (W6 m ρ c) (Proc.devRef .tc main_arg7) = _
  after_results
theorem w7_arg8 (c : Dev nD) : W7 m ρ c main_arg8 = W6 m ρ c main_arg8 := by
  show StableHlo.after hostOps1 (W6 m ρ c) (Proc.devRef .tc main_arg8) = _
  after_results
theorem w7_v9 (c : Dev nD) : W7 m ρ c main_v9 = W6 m ρ c main_v9 := by
  show StableHlo.after hostOps1 (W6 m ρ c) (Proc.devRef .tc main_v9) = _
  after_results
theorem w7_v10 (c : Dev nD) : W7 m ρ c main_v10 = W6 m ρ c main_v10 := by
  show StableHlo.after hostOps1 (W6 m ρ c) (Proc.devRef .tc main_v10) = _
  after_results

/-! ## Between the second and the third pass: the out-factor column again -/

theorem w9_v26 (c : Dev nD) : W9 m ρ c main_v26 = HostTerms.asColumn (W8 m ρ c main_v9) := by
  show StableHlo.after hostOps2 (W8 m ρ c) (Proc.devRef .tc main_v26) = _
  after_results; rfl
theorem w9_v25 (c : Dev nD) : W9 m ρ c main_v25 = W8 m ρ c main_v25 := by
  show StableHlo.after hostOps2 (W8 m ρ c) (Proc.devRef .tc main_v25) = _
  after_results
theorem w9_arg3 (c : Dev nD) : W9 m ρ c main_arg3 = W8 m ρ c main_arg3 := by
  show StableHlo.after hostOps2 (W8 m ρ c) (Proc.devRef .tc main_arg3) = _
  after_results
theorem w9_arg4 (c : Dev nD) : W9 m ρ c main_arg4 = W8 m ρ c main_arg4 := by
  show StableHlo.after hostOps2 (W8 m ρ c) (Proc.devRef .tc main_arg4) = _
  after_results
theorem w9_arg5 (c : Dev nD) : W9 m ρ c main_arg5 = W8 m ρ c main_arg5 := by
  show StableHlo.after hostOps2 (W8 m ρ c) (Proc.devRef .tc main_arg5) = _
  after_results
theorem w9_arg6 (c : Dev nD) : W9 m ρ c main_arg6 = W8 m ρ c main_arg6 := by
  show StableHlo.after hostOps2 (W8 m ρ c) (Proc.devRef .tc main_arg6) = _
  after_results
theorem w9_arg7 (c : Dev nD) : W9 m ρ c main_arg7 = W8 m ρ c main_arg7 := by
  show StableHlo.after hostOps2 (W8 m ρ c) (Proc.devRef .tc main_arg7) = _
  after_results
theorem w9_arg8 (c : Dev nD) : W9 m ρ c main_arg8 = W8 m ρ c main_arg8 := by
  show StableHlo.after hostOps2 (W8 m ρ c) (Proc.devRef .tc main_arg8) = _
  after_results
theorem w9_v10 (c : Dev nD) : W9 m ρ c main_v10 = W8 m ρ c main_v10 := by
  show StableHlo.after hostOps2 (W8 m ρ c) (Proc.devRef .tc main_v10) = _
  after_results

/-! ## Between the third and the fourth pass: the second aggregate, the in-factor column, the bias row -/

theorem w11_v37 (c : Dev nD) : W11 m ρ c main_v37
    = HostTerms.aggregate64 (W10 m ρ c main_v27) (W10 m ρ c main_arg7) (W10 m ρ c main_arg8) := by
  show StableHlo.after hostOps3 (W10 m ρ c) (Proc.devRef .tc main_v37) = _
  after_results; rfl
theorem w11_v38 (c : Dev nD) : W11 m ρ c main_v38 = HostTerms.asColumn (W10 m ρ c main_v10) := by
  show StableHlo.after hostOps3 (W10 m ρ c) (Proc.devRef .tc main_v38) = _
  after_results; rfl
theorem w11_v39 (c : Dev nD) : W11 m ρ c main_v39 = HostTerms.asRow64 (W10 m ρ c main_arg4) := by
  show StableHlo.after hostOps3 (W10 m ρ c) (Proc.devRef .tc main_v39) = _
  after_results; rfl
theorem w11_arg5 (c : Dev nD) : W11 m ρ c main_arg5 = W10 m ρ c main_arg5 := by
  show StableHlo.after hostOps3 (W10 m ρ c) (Proc.devRef .tc main_arg5) = _
  after_results
theorem w11_arg6 (c : Dev nD) : W11 m ρ c main_arg6 = W10 m ρ c main_arg6 := by
  show StableHlo.after hostOps3 (W10 m ρ c) (Proc.devRef .tc main_arg6) = _
  after_results

/-! ## Between the fourth and the fifth pass: the head's bias row -/

theorem w13_v41 (c : Dev nD) : W13 m ρ c main_v41 = HostTerms.asRow2 (W12 m ρ c main_arg6) := by
  show StableHlo.after hostOps4 (W12 m ρ c) (Proc.devRef .tc main_v41) = _
  after_results; rfl
theorem w13_v40 (c : Dev nD) : W13 m ρ c main_v40 = W12 m ρ c main_v40 := by
  show StableHlo.after hostOps4 (W12 m ρ c) (Proc.devRef .tc main_v40) = _
  after_results
theorem w13_arg5 (c : Dev nD) : W13 m ρ c main_arg5 = W12 m ρ c main_arg5 := by
  show StableHlo.after hostOps4 (W12 m ρ c) (Proc.devRef .tc main_arg5) = _
  after_results

end Host

/-! # The passes, at the extended reals -/

section Passes

open Cert.KernelIdeal.Layers

variable (m : (ℓ : Loc nD τ sig) → Buf (Elt Ideal) ℓ) (ρ : Dev nD → PrngReg)

/-! ## After the first pass: the messages of layer 1 -/

theorem w6_arg2 (c : Dev nD) : W6 m ρ c main_arg2 = m ((c : Thread nD τ).loc main_arg2) :=
  (W6_of_ne m ρ c main_arg2 (by decide)).trans (w5_arg2 m ρ c)
theorem w6_arg3 (c : Dev nD) : W6 m ρ c main_arg3 = m ((c : Thread nD τ).loc main_arg3) :=
  (W6_of_ne m ρ c main_arg3 (by decide)).trans (w5_arg3 m ρ c)
theorem w6_arg4 (c : Dev nD) : W6 m ρ c main_arg4 = m ((c : Thread nD τ).loc main_arg4) :=
  (W6_of_ne m ρ c main_arg4 (by decide)).trans (w5_arg4 m ρ c)
theorem w6_arg5 (c : Dev nD) : W6 m ρ c main_arg5 = m ((c : Thread nD τ).loc main_arg5) :=
  (W6_of_ne m ρ c main_arg5 (by decide)).trans (w5_arg5 m ρ c)
theorem w6_arg6 (c : Dev nD) : W6 m ρ c main_arg6 = m ((c : Thread nD τ).loc main_arg6) :=
  (W6_of_ne m ρ c main_arg6 (by decide)).trans (w5_arg6 m ρ c)
theorem w6_arg7 (c : Dev nD) : W6 m ρ c main_arg7 = m ((c : Thread nD τ).loc main_arg7) :=
  (W6_of_ne m ρ c main_arg7 (by decide)).trans (w5_arg7 m ρ c)
theorem w6_arg8 (c : Dev nD) : W6 m ρ c main_arg8 = m ((c : Thread nD τ).loc main_arg8) :=
  (W6_of_ne m ρ c main_arg8 (by decide)).trans (w5_arg8 m ρ c)
theorem w6_v9 (c : Dev nD) : W6 m ρ c main_v9 = invSqrtDeg (m ((c : Thread nD τ).loc main_arg7)) :=
  (W6_of_ne m ρ c main_v9 (by decide)).trans ((w5_v9 m ρ c).trans (HostTerms.invSqrtDeg_ideal _))
theorem w6_v10 (c : Dev nD) : W6 m ρ c main_v10 = invSqrtDeg (m ((c : Thread nD τ).loc main_arg8)) :=
  (W6_of_ne m ρ c main_v10 (by decide)).trans ((w5_v10 m ρ c).trans (HostTerms.invSqrtDeg_ideal _))

theorem w6_v12 (c : Dev nD) : W6 m ρ c main_v12 = message1 (m ((c : Thread nD τ).loc main_arg0)) (m ((c : Thread nD τ).loc main_arg1)) (m ((c : Thread nD τ).loc main_arg7)) := by
  refine (W6_arr m ρ c 3).trans ((Region0.arr (V5 m ρ) c).trans ?_)
  show NodeFns.scaleProject1 (W5 m ρ c main_arg0) (W5 m ρ c main_v11) (W5 m ρ c main_arg1) = _
  rw [w5_arg0, w5_v11, w5_arg1, HostTerms.invSqrtDeg_ideal, HostTerms.asColumn_ideal]
  rfl

/-! ## After the second pass: layer 1 -/

theorem w8_arg3 (c : Dev nD) : W8 m ρ c main_arg3 = m ((c : Thread nD τ).loc main_arg3) :=
  (W8_of_ne m ρ c main_arg3 (by decide)).trans ((w7_arg3 m ρ c).trans (w6_arg3 m ρ c))
theorem w8_arg4 (c : Dev nD) : W8 m ρ c main_arg4 = m ((c : Thread nD τ).loc main_arg4) :=
  (W8_of_ne m ρ c main_arg4 (by decide)).trans ((w7_arg4 m ρ c).trans (w6_arg4 m ρ c))
theorem w8_arg5 (c : Dev nD) : W8 m ρ c main_arg5 = m ((c : Thread nD τ).loc main_arg5) :=
  (W8_of_ne m ρ c main_arg5 (by decide)).trans ((w7_arg5 m ρ c).trans (w6_arg5 m ρ c))
theorem w8_arg6 (c : Dev nD) : W8 m ρ c main_arg6 = m ((c : Thread nD τ).loc main_arg6) :=
  (W8_of_ne m ρ c main_arg6 (by decide)).trans ((w7_arg6 m ρ c).trans (w6_arg6 m ρ c))
theorem w8_arg7 (c : Dev nD) : W8 m ρ c main_arg7 = m ((c : Thread nD τ).loc main_arg7) :=
  (W8_of_ne m ρ c main_arg7 (by decide)).trans ((w7_arg7 m ρ c).trans (w6_arg7 m ρ c))
theorem w8_arg8 (c : Dev nD) : W8 m ρ c main_arg8 = m ((c : Thread nD τ).loc main_arg8) :=
  (W8_of_ne m ρ c main_arg8 (by decide)).trans ((w7_arg8 m ρ c).trans (w6_arg8 m ρ c))
theorem w8_v9 (c : Dev nD) : W8 m ρ c main_v9 = invSqrtDeg (m ((c : Thread nD τ).loc main_arg7)) :=
  (W8_of_ne m ρ c main_v9 (by decide)).trans ((w7_v9 m ρ c).trans (w6_v9 m ρ c))
theorem w8_v10 (c : Dev nD) : W8 m ρ c main_v10 = invSqrtDeg (m ((c : Thread nD τ).loc main_arg8)) :=
  (W8_of_ne m ρ c main_v10 (by decide)).trans ((w7_v10 m ρ c).trans (w6_v10 m ρ c))

theorem w8_v25 (c : Dev nD) : W8 m ρ c main_v25 = layer1 (m ((c : Thread nD τ).loc main_arg0)) (m ((c : Thread nD τ).loc main_arg1)) (m ((c : Thread nD τ).loc main_arg2)) (m ((c : Thread nD τ).loc main_arg7)) (m ((c : Thread nD τ).loc main_arg8)) := by
  refine (W8_arr m ρ c 3).trans ((Region1.arr (V7 m ρ) c).trans ?_)
  show NodeFns.rescaleBiasRelu1 (W7 m ρ c main_v22) (W7 m ρ c main_v23) (W7 m ρ c main_v24) = _
  rw [w7_v22, w7_v23, w7_v24, w6_v12, w6_arg7, w6_arg8, w6_v10, w6_arg2,
    HostTerms.aggregate128_ideal, HostTerms.asColumn_ideal, HostTerms.asRow128_ideal]
  rfl

/-! ## After the third pass: the messages of layer 2 -/

theorem w10_arg4 (c : Dev nD) : W10 m ρ c main_arg4 = m ((c : Thread nD τ).loc main_arg4) :=
  (W10_of_ne m ρ c main_arg4 (by decide)).trans ((w9_arg4 m ρ c).trans (w8_arg4 m ρ c))
theorem w10_arg5 (c : Dev nD) : W10 m ρ c main_arg5 = m ((c : Thread nD τ).loc main_arg5) :=
  (W10_of_ne m ρ c main_arg5 (by decide)).trans ((w9_arg5 m ρ c).trans (w8_arg5 m ρ c))
theorem w10_arg6 (c : Dev nD) : W10 m ρ c main_arg6 = m ((c : Thread nD τ).loc main_arg6) :=
  (W10_of_ne m ρ c main_arg6 (by decide)).trans ((w9_arg6 m ρ c).trans (w8_arg6 m ρ c))
theorem w10_arg7 (c : Dev nD) : W10 m ρ c main_arg7 = m ((c : Thread nD τ).loc main_arg7) :=
  (W10_of_ne m ρ c main_arg7 (by decide)).trans ((w9_arg7 m ρ c).trans (w8_arg7 m ρ c))
theorem w10_arg8 (c : Dev nD) : W10 m ρ c main_arg8 = m ((c : Thread nD τ).loc main_arg8) :=
  (W10_of_ne m ρ c main_arg8 (by decide)).trans ((w9_arg8 m ρ c).trans (w8_arg8 m ρ c))
theorem w10_v10 (c : Dev nD) : W10 m ρ c main_v10 = invSqrtDeg (m ((c : Thread nD τ).loc main_arg8)) :=
  (W10_of_ne m ρ c main_v10 (by decide)).trans ((w9_v10 m ρ c).trans (w8_v10 m ρ c))

theorem w10_v27 (c : Dev nD) : W10 m ρ c main_v27 = message2 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  refine (W10_arr m ρ c 3).trans ((Region2.arr (V9 m ρ) c).trans ?_)
  show NodeFns.scaleProject2 (W9 m ρ c main_v25) (W9 m ρ c main_v26) (W9 m ρ c main_arg3) = _
  rw [w9_v25, w9_v26, w9_arg3, w8_v25, w8_v9, w8_arg3, HostTerms.asColumn_ideal]
  rfl

/-! ## After the fourth pass: layer 2, the hidden result -/

theorem w12_arg5 (c : Dev nD) : W12 m ρ c main_arg5 = m ((c : Thread nD τ).loc main_arg5) :=
  (W12_of_ne m ρ c main_arg5 (by decide)).trans ((w11_arg5 m ρ c).trans (w10_arg5 m ρ c))
theorem w12_arg6 (c : Dev nD) : W12 m ρ c main_arg6 = m ((c : Thread nD τ).loc main_arg6) :=
  (W12_of_ne m ρ c main_arg6 (by decide)).trans ((w11_arg6 m ρ c).trans (w10_arg6 m ρ c))

theorem w12_v40 (c : Dev nD) : W12 m ρ c main_v40 = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine (W12_arr m ρ c 3).trans ((Region3.arr (V11 m ρ) c).trans ?_)
  show NodeFns.rescaleBias2 (W11 m ρ c main_v37) (W11 m ρ c main_v38) (W11 m ρ c main_v39) = _
  rw [w11_v37, w11_v38, w11_v39, w10_v27, w10_arg7, w10_arg8, w10_v10, w10_arg4,
    HostTerms.aggregate64_ideal, HostTerms.asColumn_ideal, HostTerms.asRow64_ideal]
  rfl

/-! ## After the fifth pass: the head, and the hidden result untouched -/

theorem w14_v42 (c : Dev nD) : W14 m ρ c main_v42 = head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W14_arr m ρ c 3).trans ((Region4.arr (V13 m ρ) c).trans ?_)
  show NodeFns.projectBias (W13 m ρ c main_v40) (W13 m ρ c main_arg5) (W13 m ρ c main_v41) = _
  rw [w13_v40, w13_arg5, w13_v41, w12_v40, w12_arg5, w12_arg6, HostTerms.asRow2_ideal]
  rfl

theorem w14_v40 (c : Dev nD) : W14 m ρ c main_v40 = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (W14_arr m ρ c 0).trans ((((dat4 (V13 m ρ) c).arrAt_in 0 rfl _).trans (A_eq4 (V13 m ρ) c 0)).trans
    ((w13_v40 m ρ c).trans (w12_v40 m ρ c)))

end Passes

end Cert.KernelIdeal.Chain

end
-- ==== Proof.Pointwise.lean ====
/-
  The node-wise maps of the kernel's composed term that need no law beyond reading an index are, as whole arrays,
  the reference's own stages: the per-node factor 1 / sqrt (max 1 degree) is the reference's reciprocal square root of
  the clamped degree count, term for term; the sparse aggregate is the reference's gather followed by its scatter-add,
  term for term; "rescale by the factor column, add the bias row (and clamp at zero)" is the reference's multiply by
  the factor broadcast along the features, add of the bias broadcast along the nodes (and maximum with the zero
  array), index by index; and the head's sum over the 64 hidden features plus the bias is the reference's
  dot_general read at an index plus the broadcast bias.
-/
import proofs.«135889_j65687229826124_1_alg».proof.Proof.Layers
import proofs.«135889_j65687229826124_1_alg».proof.Proof.Gen.ReferenceIdeal.Read
import Idealize.ShloMosaic.Lib.Pipeline.Value
import Idealize.ShloMosaic.Lib.ValueIdx
import Idealize.ShloMosaic.PureOps.Ideal.Laws

noncomputable section

namespace Cert.Bridge.Pointwise

open Idealize.ShloMosaic Idealize.ShloMosaic.ValueIdx
open Cert.KernelIdeal Cert.KernelIdeal.Layers

/-- The per-node factor is the reference's first-layer in-degree factor: the same term. -/
theorem invSqrtDeg_eq_v24 (e : Layers.Edges) : Layers.invSqrtDeg e = Cert.ReferenceIdeal.Read.val_main_v24 (F := Ideal) e := rfl

/-- The per-node factor is the reference's second-layer in-degree factor: the same term. -/
theorem invSqrtDeg_eq_v56 (e : Layers.Edges) : Layers.invSqrtDeg e = Cert.ReferenceIdeal.Read.val_main_v56 (F := Ideal) e := rfl

/-- The 128-feature aggregate is the reference's gather of the source rows scattered and added into the destination rows. -/
theorem aggregate128_eq (h : FVec Ideal S50000x128 .f32) (src dst : Layers.Edges) :
    Layers.aggregate128 h src dst
      = Host.scatterAdd Cert.ReferenceIdeal.scatter_S50000x128_S800000x1_S800000x128_1_0_0_1 (Cert.ReferenceIdeal.Read.val_main_v21 (F := Ideal))
          (Cert.ReferenceIdeal.Read.val_main_v22 (F := Ideal) dst)
          (Host.gather Cert.ReferenceIdeal.gather_S50000x128_S800000x1_S800000x128_1_0_n_n_0_1_1128 h (Cert.ReferenceIdeal.Read.val_main_v19 (F := Ideal) src)) := rfl

/-- The same over 64 features. -/
theorem aggregate64_eq (h : FVec Ideal S50000x64 .f32) (src dst : Layers.Edges) :
    Layers.aggregate64 h src dst
      = Host.scatterAdd Cert.ReferenceIdeal.scatter_S50000x64_S800000x1_S800000x64_1_0_0_1 (Cert.ReferenceIdeal.Read.val_main_v53 (F := Ideal))
          (Cert.ReferenceIdeal.Read.val_main_v54 (F := Ideal) dst)
          (Host.gather Cert.ReferenceIdeal.gather_S50000x64_S800000x1_S800000x64_1_0_n_n_0_1_164 h (Cert.ReferenceIdeal.Read.val_main_v51 (F := Ideal) src)) := rfl

/-- A per-node vector viewed as a one-column matrix, read at an index of the column: the vector at that row (the two
    indices have the same row-major position, the row, since the second coordinate is below 1). -/
theorem asColumn_apply (s : FVec Ideal S50000 .f32) (i : S50000x1.Idx) (k : S50000.Idx) (hk : (k 0).val = (i 0).val) :
    Layers.asColumn s i = s k := by
  unfold Layers.asColumn
  refine shapeCast_apply s _ i k ?_
  rw [Shape.rowMajor_val_one, Shape.rowMajor_val_two, hk]
  have h1 : (i 1).val < 1 := (i 1).isLt
  show (i 0).val = (i 0).val * 1 + (i 1).val
  omega

/-- A 128-vector viewed as a one-row matrix, read at an index of the row: the vector at that column. -/
theorem asRow128_apply (b : FVec Ideal S128 .f32) (i : S1x128.Idx) (k : S128.Idx) (hk : (k 0).val = (i 1).val) :
    Layers.asRow128 b i = b k := by
  unfold Layers.asRow128
  refine shapeCast_apply b _ i k ?_
  rw [Shape.rowMajor_val_one, Shape.rowMajor_val_two, hk]
  have h0 : (i 0).val < 1 := (i 0).isLt
  show (i 1).val = (i 0).val * 128 + (i 1).val
  omega

/-- The same for a 64-vector. -/
theorem asRow64_apply (b : FVec Ideal S64 .f32) (i : S1x64.Idx) (k : S64.Idx) (hk : (k 0).val = (i 1).val) :
    Layers.asRow64 b i = b k := by
  unfold Layers.asRow64
  refine shapeCast_apply b _ i k ?_
  rw [Shape.rowMajor_val_one, Shape.rowMajor_val_two, hk]
  have h0 : (i 0).val < 1 := (i 0).isLt
  show (i 1).val = (i 0).val * 64 + (i 1).val
  omega

/-- The same for a 2-vector. -/
theorem asRow2_apply (b : FVec Ideal S2 .f32) (i : S1x2.Idx) (k : S2.Idx) (hk : (k 0).val = (i 1).val) :
    Layers.asRow2 b i = b k := by
  unfold Layers.asRow2
  refine shapeCast_apply b _ i k ?_
  rw [Shape.rowMajor_val_one, Shape.rowMajor_val_two, hk]
  have h0 : (i 0).val < 1 := (i 0).isLt
  show (i 1).val = (i 0).val * 2 + (i 1).val
  omega

/-- Layer 1's rescale, bias and clamp: at index (v, j) both sides are max (a (v, j) * factor v + b j) 0. The reference
    reaches factor v through two broadcasts (to a column, then along the features) and b j through two (to a row, then
    along the nodes); the composed index maps name row v of the factor vector and entry j of the bias. -/
theorem rescaleBiasRelu1_eq (a : FVec Ideal S50000x128 .f32) (dst : Layers.Edges) (b : FVec Ideal S128 .f32) :
    NodeFns.rescaleBiasRelu1 a (Layers.asColumn (Layers.invSqrtDeg dst)) (Layers.asRow128 b)
      = maximumf (addf (mulf a (Cert.ReferenceIdeal.Read.val_main_v26 (F := Ideal) dst)) (Cert.ReferenceIdeal.Read.val_main_v29 (F := Ideal) b)) (Cert.ReferenceIdeal.Read.val_main_call2_v0 (F := Ideal)) := by
  funext i
  unfold NodeFns.rescaleBiasRelu1
  show max (a i * Layers.asColumn (Layers.invSqrtDeg dst) (ix2 (NodeFns.node i) (0 : Fin 1))
        + Layers.asRow128 b (ix2 (0 : Fin 1) (NodeFns.feat i))) (Ideal.ofBits .f32 0x00000000#32)
      = max (a i * Cert.ReferenceIdeal.Read.val_main_v26 (F := Ideal) dst i + Cert.ReferenceIdeal.Read.val_main_v29 (F := Ideal) b i) (Cert.ReferenceIdeal.Read.val_main_call2_v0 (F := Ideal) i)
  rw [Cert.ReferenceIdeal.Read.val_main_v26_apply, Cert.ReferenceIdeal.Read.val_main_v25_apply, Cert.ReferenceIdeal.Read.val_main_v29_apply, Cert.ReferenceIdeal.Read.val_main_v28_apply,
    Cert.ReferenceIdeal.Read.val_main_call2_v0_apply, Cert.ReferenceIdeal.Read.val_main_call2_cst_apply,
    asColumn_apply (Layers.invSqrtDeg dst) (ix2 (NodeFns.node i) (0 : Fin 1)) (Cert.ReferenceIdeal.Read.idx_main_v25 (Cert.ReferenceIdeal.Read.idx_main_v26 i)) rfl,
    asRow128_apply b (ix2 (0 : Fin 1) (NodeFns.feat i)) (Cert.ReferenceIdeal.Read.idx_main_v28 (Cert.ReferenceIdeal.Read.idx_main_v29 i)) rfl,
    invSqrtDeg_eq_v24]
  rfl

/-- Layer 2's rescale and bias: at index (v, j) both sides are a (v, j) * factor v + b j. -/
theorem rescaleBias2_eq (a : FVec Ideal S50000x64 .f32) (dst : Layers.Edges) (b : FVec Ideal S64 .f32) :
    NodeFns.rescaleBias2 a (Layers.asColumn (Layers.invSqrtDeg dst)) (Layers.asRow64 b)
      = addf (mulf a (Cert.ReferenceIdeal.Read.val_main_v58 (F := Ideal) dst)) (Cert.ReferenceIdeal.Read.val_main_v61 (F := Ideal) b) := by
  funext i
  unfold NodeFns.rescaleBias2
  show a i * Layers.asColumn (Layers.invSqrtDeg dst) (ix2 (NodeFns.node i) (0 : Fin 1))
        + Layers.asRow64 b (ix2 (0 : Fin 1) (NodeFns.feat i))
      = a i * Cert.ReferenceIdeal.Read.val_main_v58 (F := Ideal) dst i + Cert.ReferenceIdeal.Read.val_main_v61 (F := Ideal) b i
  rw [Cert.ReferenceIdeal.Read.val_main_v58_apply, Cert.ReferenceIdeal.Read.val_main_v57_apply, Cert.ReferenceIdeal.Read.val_main_v61_apply, Cert.ReferenceIdeal.Read.val_main_v60_apply,
    asColumn_apply (Layers.invSqrtDeg dst) (ix2 (NodeFns.node i) (0 : Fin 1)) (Cert.ReferenceIdeal.Read.idx_main_v57 (Cert.ReferenceIdeal.Read.idx_main_v58 i)) rfl,
    asRow64_apply b (ix2 (0 : Fin 1) (NodeFns.feat i)) (Cert.ReferenceIdeal.Read.idx_main_v60 (Cert.ReferenceIdeal.Read.idx_main_v61 i)) rfl,
    invSqrtDeg_eq_v56]

/-- The host's product of the hidden result with the head's weights, read at index (v, j): the sum over the 64
    contracted features of h (v, k) * w (k, j). -/
theorem dot_apply (h : FVec Ideal S50000x64 .f32) (w : FVec Ideal S64x2 .f32) (i : S50000x2.Idx) :
    Host.dotGeneral Cert.ReferenceIdeal.dot_S50000x64_S64x2_S50000x2_1_0_0_1_n_n none h w i = ∑ k : Fin 64, h (ix2 (NodeFns.node i) k) * w (ix2 k (NodeFns.feat i)) := by
  simp only [Host.dotGeneral]
  rw [Ideal.dotGeneral_apply, ← Equiv.sum_comp (contrEquiv1 Cert.ReferenceIdeal.dot_S50000x64_S64x2_S50000x2_1_0_0_1_n_n 64 rfl rfl).symm]
  refine Finset.sum_congr rfl fun k _ => ?_
  have hk := contrEquiv1_symm_val Cert.ReferenceIdeal.dot_S50000x64_S64x2_S50000x2_1_0_0_1_n_n 64 rfl rfl k
  have el : Cert.ReferenceIdeal.dot_S50000x64_S64x2_S50000x2_1_0_0_1_n_n.lhsIdx i ((contrEquiv1 Cert.ReferenceIdeal.dot_S50000x64_S64x2_S50000x2_1_0_0_1_n_n 64 rfl rfl).symm k) = ix2 (NodeFns.node i) k := funext fun a => Fin.ext (by
    match a with
    | ⟨0, _⟩ => exact Cert.ReferenceIdeal.Read.lhs_main_v63_0 _ _
    | ⟨1, _⟩ => exact (Cert.ReferenceIdeal.Read.lhs_main_v63_1 _ _).trans hk)
  have er : Cert.ReferenceIdeal.dot_S50000x64_S64x2_S50000x2_1_0_0_1_n_n.rhsIdx i ((contrEquiv1 Cert.ReferenceIdeal.dot_S50000x64_S64x2_S50000x2_1_0_0_1_n_n 64 rfl rfl).symm k) = ix2 k (NodeFns.feat i) := funext fun a => Fin.ext (by
    match a with
    | ⟨0, _⟩ => exact (Cert.ReferenceIdeal.Read.rhs_main_v63_0 _ _).trans hk
    | ⟨1, _⟩ => exact Cert.ReferenceIdeal.Read.rhs_main_v63_1 _ _)
  rw [el, er]

/-- The head: at index (v, j) both sides are (∑ k, h (v, k) * w (k, j)) + b j. -/
theorem projectBias_eq (h : FVec Ideal S50000x64 .f32) (w : FVec Ideal S64x2 .f32) (b : FVec Ideal S2 .f32) :
    NodeFns.projectBias h w (Layers.asRow2 b)
      = addf (Host.dotGeneral Cert.ReferenceIdeal.dot_S50000x64_S64x2_S50000x2_1_0_0_1_n_n none h w) (Cert.ReferenceIdeal.Read.val_main_v65 (F := Ideal) b) := by
  funext i
  unfold NodeFns.projectBias
  show (∑ k : Fin 64, h (ix2 (NodeFns.node i) k) * w (ix2 k (NodeFns.feat i))) + Layers.asRow2 b (ix2 (0 : Fin 1) (NodeFns.feat i))
      = Host.dotGeneral Cert.ReferenceIdeal.dot_S50000x64_S64x2_S50000x2_1_0_0_1_n_n none h w i + Cert.ReferenceIdeal.Read.val_main_v65 (F := Ideal) b i
  rw [dot_apply h w i, Cert.ReferenceIdeal.Read.val_main_v65_apply, Cert.ReferenceIdeal.Read.val_main_v64_apply,
    asRow2_apply b (ix2 (0 : Fin 1) (NodeFns.feat i)) (Cert.ReferenceIdeal.Read.idx_main_v64 (Cert.ReferenceIdeal.Read.idx_main_v65 i)) rfl]

end Cert.Bridge.Pointwise

end
-- ==== Proof.ScaleLaw.lean ====
/-
  The one real law of the comparison: the kernel scales row `v` of the features by the node's factor `s v` BEFORE
  the matrix product, the reference multiplies the product by `s v` AFTER it:
      ∑ k, (x (v, k) * s v) * w (k, j) = (∑ k, x (v, k) * w (k, j)) * s v.
  On the extended reals multiplication is commutative and associative, but it distributes over a sum only for a
  factor that is nonnegative and not `+∞`. The node factor is `1 / sqrt (max 1 d)`: the argument of the reciprocal
  square root is at least one whatever the count `d` is (even `±∞`), so the factor lies in `[0, 1]`; nothing is
  asked of `x` or `w`.
-/
import proofs.«135889_j65687229826124_1_alg».proof.Proof.Layers
import proofs.«135889_j65687229826124_1_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal.Laws
import Mathlib.Data.EReal.Operations
import Mathlib.Data.EReal.Inv

noncomputable section

namespace Cert.Bridge.ScaleLaw

open Idealize.ShloMosaic Idealize.ShloMosaic.ValueIdx
open Cert.KernelIdeal Cert.KernelIdeal.Gen Cert.KernelIdeal.Layers

/-! ## The law over a finite sum -/

/-- A nonnegative factor other than `+∞` moves out of a sum of products. -/
theorem sum_scale {K : Nat} (a b : Fin K → EReal) (s : EReal) (h0 : 0 ≤ s) (ht : s ≠ ⊤) :
    (∑ k : Fin K, (a k * s) * b k) = (∑ k : Fin K, a k * b k) * s := by
  have key : ∀ S : Finset (Fin K), (∑ k ∈ S, (a k * s) * b k) = (∑ k ∈ S, a k * b k) * s := by
    intro S
    induction S using Finset.induction_on with
    | empty => simp
    | insert k S hk ih =>
      rw [Finset.sum_insert hk, Finset.sum_insert hk, ih,
        EReal.right_distrib_of_nonneg_of_ne_top h0 ht, mul_assoc, mul_comm s (b k), ← mul_assoc]
  exact key Finset.univ

/-! ## The node factor -/

/-- The reciprocal square root of an extended real that is at least one lies in `[0, +∞)`. -/
theorem rsqrt_of_one_le (y : EReal) (h : 1 ≤ y) : 0 ≤ Ideal.rsqrt y ∧ Ideal.rsqrt y ≠ ⊤ := by
  induction y using EReal.rec with
  | bot => exact absurd (le_bot_iff.1 h) (by exact_mod_cast EReal.coe_ne_bot (1 : ℝ))
  | top => exact ⟨le_refl _, EReal.zero_ne_top⟩
  | coe r =>
    have hr : (1 : ℝ) ≤ r := by exact_mod_cast h
    show 0 ≤ (if r < 0 then (⊥ : EReal) else if r = 0 then ⊤ else (((Real.sqrt r)⁻¹ : ℝ) : EReal))
      ∧ (if r < 0 then (⊥ : EReal) else if r = 0 then ⊤ else (((Real.sqrt r)⁻¹ : ℝ) : EReal)) ≠ ⊤
    rw [if_neg (by linarith), if_neg (by linarith)]
    exact ⟨EReal.coe_nonneg.2 (inv_nonneg.2 (Real.sqrt_nonneg r)), EReal.coe_ne_top _⟩

/-- The host's reciprocal square root reads elementwise. -/
theorem host_rsqrt_apply {s : Shape} {φ : FTy} (y : FVec Ideal s φ) (i : s.Idx) : Host.rsqrt y i = Ideal.rsqrt (y i) := rfl

/-- Per node, how many edges of `e` list it: the host's scatter-add of ones into zeros. -/
def count (e : Layers.Edges) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 e)
    (broadcastInDim S800000 ![] bcast_S_S800000 (constant S_ .f32 0x3F800000#32))

/-- The node factor is the reciprocal square root of the maximum of one and the count. -/
theorem invSqrtDeg_apply (e : Layers.Edges) (i : S50000.Idx) :
    Layers.invSqrtDeg e i = Ideal.rsqrt (max 1 (count e i)) := by
  unfold Layers.invSqrtDeg count
  rw [host_rsqrt_apply, maximumf_apply,
    broadcastInDim_apply ![] bcast_S_S50000 (id (constant (F := Ideal) S_ .f32 0x3F800000#32)) i (fun a => a.elim0) (fun a => a.elim0),
    id, constant_apply, Ideal.ofBits_one_f32]

theorem invSqrtDeg_nonneg (e : Layers.Edges) (i : S50000.Idx) : (0 : EReal) ≤ Layers.invSqrtDeg e i := by
  rw [invSqrtDeg_apply]
  exact (rsqrt_of_one_le _ (le_max_left _ _)).1

theorem invSqrtDeg_ne_top (e : Layers.Edges) (i : S50000.Idx) : Layers.invSqrtDeg e i ≠ (⊤ : EReal) := by
  rw [invSqrtDeg_apply]
  exact (rsqrt_of_one_le _ (le_max_left _ _)).2

/-- The reference's layer-1 factor is the same term. -/
theorem invSqrtDeg_eq_v10 (e : Layers.Edges) : Layers.invSqrtDeg e = Cert.ReferenceIdeal.Read.val_main_v10 (F := Ideal) e := rfl

/-- The reference recomputes the same factor for layer 2. -/
theorem invSqrtDeg_eq_v42 (e : Layers.Edges) : Layers.invSqrtDeg e = Cert.ReferenceIdeal.Read.val_main_v42 (F := Ideal) e := rfl

/-! ## The two scale-and-project passes against the reference's product-then-scale -/

/-- A per-node vector read as a column: row `v` of the column is entry `v` of the vector. -/
theorem asColumn_apply (s : FVec Ideal S50000 .f32) (v : Fin 50000) (k : S50000.Idx) (hk : (k 0).val = v.val) :
    Layers.asColumn s (ix2 v (0 : Fin 1)) = s k := by
  unfold Layers.asColumn
  refine shapeCast_apply s shapeCasts_S50000_S50000x1 (ix2 v (0 : Fin 1)) k ?_
  rw [Shape.rowMajor_val_two, Shape.rowMajor_val_one, hk]
  show v.val = v.val * 1 + 0
  omega

/-- Layer 1: scaling the rows of `x` by the node factor and then projecting is the reference's product times the
    broadcast factor. -/
theorem scaleProject1_eq (x : FVec Ideal S50000x256 .f32) (w : FVec Ideal S256x128 .f32) (src : Layers.Edges) :
    NodeFns.scaleProject1 x (Layers.asColumn (Layers.invSqrtDeg src)) w
      = mulf (Cert.ReferenceIdeal.Read.val_main_v9 (F := Ideal) x w) (Cert.ReferenceIdeal.Read.val_main_v12 (F := Ideal) src) := by
  funext i
  rw [mulf_apply, Cert.ReferenceIdeal.Read.val_main_v9_apply, Cert.ReferenceIdeal.Read.val_main_v12_apply,
    Cert.ReferenceIdeal.Read.val_main_v11_apply, ← invSqrtDeg_eq_v10]
  unfold NodeFns.scaleProject1
  show (∑ k : Fin 256, (x (ix2 (NodeFns.node i) k) * Layers.asColumn (Layers.invSqrtDeg src) (ix2 (NodeFns.node i) (0 : Fin 1)))
      * w (ix2 k (NodeFns.feat i))) = _
  rw [asColumn_apply (Layers.invSqrtDeg src) (NodeFns.node i)
      (Cert.ReferenceIdeal.Read.idx_main_v11 (Cert.ReferenceIdeal.Read.idx_main_v12 i)) rfl,
    sum_scale (fun k => x (ix2 (NodeFns.node i) k)) (fun k => w (ix2 k (NodeFns.feat i))) _
      (invSqrtDeg_nonneg src _) (invSqrtDeg_ne_top src _)]
  congr 1
  refine Finset.sum_congr rfl fun k _ => ?_
  have el : Cert.ReferenceIdeal.Read.lidx_main_v9 i k = ix2 (NodeFns.node i) k :=
    funext fun a => Fin.ext (by match a with | ⟨0, _⟩ => rfl | ⟨1, _⟩ => rfl)
  have er : Cert.ReferenceIdeal.Read.ridx_main_v9 i k = ix2 k (NodeFns.feat i) :=
    funext fun a => Fin.ext (by match a with | ⟨0, _⟩ => rfl | ⟨1, _⟩ => rfl)
  rw [el, er]

/-- The reference's layer-2 product at an index: the sum over the 128 contracted features. -/
theorem dot2_apply (h : FVec Ideal S50000x128 .f32) (w : FVec Ideal S128x64 .f32) (i : S50000x64.Idx) :
    Host.dotGeneral Cert.ReferenceIdeal.dot_S50000x128_S128x64_S50000x64_1_0_0_1_n_n none h w i
      = ∑ k : Fin 128, h (ix2 (NodeFns.node i) k) * w (ix2 k (NodeFns.feat i)) := by
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : (Cert.ReferenceIdeal.dot_S50000x128_S128x64_S50000x64_1_0_0_1_n_n).lhsIdx i ((ValueIdx.contrEquiv1 Cert.ReferenceIdeal.dot_S50000x128_S128x64_S50000x64_1_0_0_1_n_n 128 rfl rfl).symm k) = ix2 (NodeFns.node i) k := funext fun a => Fin.ext (by
    match a with
    | ⟨0, _⟩ => exact Cert.ReferenceIdeal.Read.lhs_main_v41_0 _ _
    | ⟨1, _⟩ => exact (Cert.ReferenceIdeal.Read.lhs_main_v41_1 _ _).trans hk)
  have er : (Cert.ReferenceIdeal.dot_S50000x128_S128x64_S50000x64_1_0_0_1_n_n).rhsIdx i ((ValueIdx.contrEquiv1 Cert.ReferenceIdeal.dot_S50000x128_S128x64_S50000x64_1_0_0_1_n_n 128 rfl rfl).symm k) = ix2 k (NodeFns.feat i) := funext fun a => Fin.ext (by
    match a with
    | ⟨0, _⟩ => exact (Cert.ReferenceIdeal.Read.rhs_main_v41_0 _ _).trans hk
    | ⟨1, _⟩ => exact Cert.ReferenceIdeal.Read.rhs_main_v41_1 _ _)
  rw [el, er]

/-- Layer 2: the same law over 128 contracted features. -/
theorem scaleProject2_eq (h : FVec Ideal S50000x128 .f32) (w : FVec Ideal S128x64 .f32) (src : Layers.Edges) :
    NodeFns.scaleProject2 h (Layers.asColumn (Layers.invSqrtDeg src)) w
      = mulf (Host.dotGeneral Cert.ReferenceIdeal.dot_S50000x128_S128x64_S50000x64_1_0_0_1_n_n none h w) (Cert.ReferenceIdeal.Read.val_main_v44 (F := Ideal) src) := by
  funext i
  rw [mulf_apply, dot2_apply, Cert.ReferenceIdeal.Read.val_main_v44_apply,
    Cert.ReferenceIdeal.Read.val_main_v43_apply, ← invSqrtDeg_eq_v42]
  unfold NodeFns.scaleProject2
  show (∑ k : Fin 128, (h (ix2 (NodeFns.node i) k) * Layers.asColumn (Layers.invSqrtDeg src) (ix2 (NodeFns.node i) (0 : Fin 1)))
      * w (ix2 k (NodeFns.feat i))) = _
  rw [asColumn_apply (Layers.invSqrtDeg src) (NodeFns.node i)
      (Cert.ReferenceIdeal.Read.idx_main_v43 (Cert.ReferenceIdeal.Read.idx_main_v44 i)) rfl,
    sum_scale (fun k => h (ix2 (NodeFns.node i) k)) (fun k => w (ix2 k (NodeFns.feat i))) _
      (invSqrtDeg_nonneg src _) (invSqrtDeg_ne_top src _)]

end Cert.Bridge.ScaleLaw

end
-- ==== Proof.Compose.lean ====
/-
  The kernel's composed term is the reference's last stage, built up stage by stage. Each step replaces ONE
  node-wise map of the kernel's term by the reference's stage it equals (the scale-and-project law for the two
  messages; term-for-term identity for the two sparse aggregates; index-by-index identity for the two rescale-and-bias
  maps and for the head) and then meets the reference's definition of that stage, which names the earlier stages
  exactly as the rewritten term does:
    message 1 = stage 13;  aggregate 1 = stage 23;  layer 1 = stage 31;
    message 2 = stage 45;  aggregate 2 = stage 55;  layer 2 = stage 62 (the hidden result);
    head = stage 66 (the logits result).
-/
import proofs.«135889_j65687229826124_1_alg».proof.Proof.Layers
import proofs.«135889_j65687229826124_1_alg».proof.Proof.Pointwise
import proofs.«135889_j65687229826124_1_alg».proof.Proof.ScaleLaw
import proofs.«135889_j65687229826124_1_alg».proof.Proof.Gen.ReferenceIdeal.Read

noncomputable section

namespace Cert.Bridge.Compose

open Idealize.ShloMosaic
open Cert.KernelIdeal Cert.KernelIdeal.Layers

/-- Layer 1's message (rows scaled by the out-factor, then projected) is the reference's product times the
    broadcast factor. -/
theorem message1_eq (x : FVec Ideal S50000x256 .f32) (w1 : FVec Ideal S256x128 .f32) (src : Layers.Edges) :
    Layers.message1 x w1 src = Cert.ReferenceIdeal.Read.val_main_v13 (F := Ideal) x w1 src := by
  unfold Layers.message1 Cert.ReferenceIdeal.Read.val_main_v13
  exact ScaleLaw.scaleProject1_eq x w1 src

/-- Layer 1's aggregate of the message is the reference's gather and scatter-add of its stage 13. -/
theorem agg1_eq (x : FVec Ideal S50000x256 .f32) (w1 : FVec Ideal S256x128 .f32) (src dst : Layers.Edges) :
    Layers.aggregate128 (Layers.message1 x w1 src) src dst = Cert.ReferenceIdeal.Read.val_main_v23 (F := Ideal) x w1 src dst := by
  rw [Pointwise.aggregate128_eq, message1_eq]
  unfold Cert.ReferenceIdeal.Read.val_main_v23 Cert.ReferenceIdeal.Read.val_main_v20
  rfl

/-- Layer 1 (rescale by the in-factor, add the bias, clamp at zero) is the reference's stage 31. -/
theorem layer1_eq (x : FVec Ideal S50000x256 .f32) (w1 : FVec Ideal S256x128 .f32) (b1 : FVec Ideal S128 .f32) (src dst : Layers.Edges) :
    Layers.layer1 x w1 b1 src dst = Cert.ReferenceIdeal.Read.val_main_v31 (F := Ideal) x w1 b1 src dst := by
  unfold Layers.layer1
  rw [Pointwise.rescaleBiasRelu1_eq, agg1_eq]
  unfold Cert.ReferenceIdeal.Read.val_main_v31 Cert.ReferenceIdeal.Read.val_main_v30 Cert.ReferenceIdeal.Read.val_main_v27
  rfl

/-- Layer 2's message is the reference's product of stage 31 with the second weights, times the broadcast factor. -/
theorem message2_eq (x : FVec Ideal S50000x256 .f32) (w1 : FVec Ideal S256x128 .f32) (b1 : FVec Ideal S128 .f32) (w2 : FVec Ideal S128x64 .f32) (src dst : Layers.Edges) :
    Layers.message2 x w1 b1 w2 src dst = Cert.ReferenceIdeal.Read.val_main_v45 (F := Ideal) x w1 b1 w2 src dst := by
  unfold Layers.message2
  rw [ScaleLaw.scaleProject2_eq, layer1_eq]
  unfold Cert.ReferenceIdeal.Read.val_main_v45 Cert.ReferenceIdeal.Read.val_main_v41
  rfl

/-- Layer 2's aggregate of the message is the reference's gather and scatter-add of its stage 45. -/
theorem agg2_eq (x : FVec Ideal S50000x256 .f32) (w1 : FVec Ideal S256x128 .f32) (b1 : FVec Ideal S128 .f32) (w2 : FVec Ideal S128x64 .f32) (src dst : Layers.Edges) :
    Layers.aggregate64 (Layers.message2 x w1 b1 w2 src dst) src dst = Cert.ReferenceIdeal.Read.val_main_v55 (F := Ideal) x w1 b1 w2 src dst := by
  rw [Pointwise.aggregate64_eq, message2_eq]
  unfold Cert.ReferenceIdeal.Read.val_main_v55 Cert.ReferenceIdeal.Read.val_main_v52
  rfl

/-- Layer 2 (the hidden result) is the reference's stage 62. -/
theorem layer2_eq (x : FVec Ideal S50000x256 .f32) (w1 : FVec Ideal S256x128 .f32) (b1 : FVec Ideal S128 .f32) (w2 : FVec Ideal S128x64 .f32) (b2 : FVec Ideal S64 .f32) (src dst : Layers.Edges) :
    Layers.layer2 x w1 b1 w2 b2 src dst = Cert.ReferenceIdeal.Read.val_main_v62 (F := Ideal) x w1 b1 w2 b2 src dst := by
  unfold Layers.layer2
  rw [Pointwise.rescaleBias2_eq, agg2_eq]
  unfold Cert.ReferenceIdeal.Read.val_main_v62 Cert.ReferenceIdeal.Read.val_main_v59
  rfl

/-- The head (the logits result) is the reference's stage 66. -/
theorem head_eq (x : FVec Ideal S50000x256 .f32) (w1 : FVec Ideal S256x128 .f32) (b1 : FVec Ideal S128 .f32) (w2 : FVec Ideal S128x64 .f32) (b2 : FVec Ideal S64 .f32) (wf : FVec Ideal S64x2 .f32) (bf : FVec Ideal S2 .f32)
    (src dst : Layers.Edges) :
    Layers.head x w1 b1 w2 b2 wf bf src dst = Cert.ReferenceIdeal.Read.val_main_v66 (F := Ideal) x w1 b1 w2 b2 wf bf src dst := by
  unfold Layers.head
  rw [Pointwise.projectBias_eq, layer2_eq]
  unfold Cert.ReferenceIdeal.Read.val_main_v66 Cert.ReferenceIdeal.Read.val_main_v63
  rfl

end Cert.Bridge.Compose

end
-- ==== Proof.lean ====
/-
  A two-layer graph convolution with a linear head over 50000 nodes and 800000 edges: the kernel runs five grid
  passes (scale-and-project, rescale-bias-clamp, scale-and-project, rescale-bias, project-bias) with the sparse
  aggregate (gather by source, add into destination) done by host operations between them; the reference is plain
  jnp. At the extended reals the two differ in ONE place per layer: the kernel scales row v of the features by the
  node's factor s v = rsqrt (max 1 (out-degree v)) BEFORE the matrix product, the reference multiplies the product by
  s v afterwards. The factor is nonnegative and never +∞, and multiplication by such a factor distributes over any
  sum of extended reals, so ∑ k, (x (v,k) * s v) * w (k,j) = (∑ k, x (v,k) * w (k,j)) * s v with no finiteness of x or w
  (ScaleLaw): the precondition is never opened. Everything else is the same operations in the same order: a grid pass
  over ten row blocks of 5000 nodes against the whole-array operation (Region0 … Region4: each pass's result array is
  one node-wise map of the arrays it found), the degree factors computed once by the kernel and once per layer by the
  reference (the same term), the clamp at zero as max (· , 0) on both sides (Pointwise, Compose).
  The kernel's two results are read off its run boundary by boundary (Chain) and are Layers.head and Layers.layer2 of
  the nine arguments; the reference's run ends at its last stages, which are the same two functions (Compose).
  The idealization rewrote nothing, so `preserves` is trivial.
-/
import proofs.«135889_j65687229826124_1_alg».proof.Defs
import proofs.«135889_j65687229826124_1_alg».proof.Proof.Gen.Kernel
import proofs.«135889_j65687229826124_1_alg».proof.Proof.Gen.Kernel.Frame
import proofs.«135889_j65687229826124_1_alg».proof.Proof.Gen.KernelIdeal
import proofs.«135889_j65687229826124_1_alg».proof.Proof.Gen.KernelIdeal.Frame
import proofs.«135889_j65687229826124_1_alg».proof.Proof.Gen.ReferenceIdeal
import proofs.«135889_j65687229826124_1_alg».proof.Proof.Gen.ReferenceIdeal.Run
import proofs.«135889_j65687229826124_1_alg».proof.Proof.Gen.ReferenceIdeal.Read
import proofs.«135889_j65687229826124_1_alg».proof.Proof.Gen.Pre_finite_inputs
import proofs.«135889_j65687229826124_1_alg».proof.Proof.RunNamed
import proofs.«135889_j65687229826124_1_alg».proof.Proof.Chain
import proofs.«135889_j65687229826124_1_alg».proof.Proof.Compose
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the logits at `Layers.head` and the hidden features at `Layers.layer2` of the arguments. -/
theorem algebraic : Cert.algebraic_KernelIdeal_ReferenceIdeal := by
  intro m ρ m' ρ' _ hagree
  refine ⟨fun c => Cert.KernelIdeal.Layers.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.KernelIdeal.Layers.layer2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.w14_v42 m ρ c),
        (h c).2.1.trans (Cert.KernelIdeal.Chain.w14_v40 m ρ c), (h c).2.2⟩)
      (Cert.KernelIdeal.GenRun.run_named (F := Ideal) m ρ)
  · refine (θ_run Cert.ReferenceIdeal.defs _ _).mono (fun r h c => ⟨?_, ?_, (h c).2.2⟩)
      (Cert.ReferenceIdeal.Value.run (F := Ideal) m' ρ')
    · obtain ⟨e0, e1, e2, e3, e4, e5, e6, e7, e8⟩ := hagree c
      refine (h c).1.trans ((Cert.ReferenceIdeal.Read.val_main_v66_eq m' c).trans ?_)
      rw [e0, e1, e2, e3, e4, e5, e6, e7, e8]
      exact (Cert.Bridge.Compose.head_eq _ _ _ _ _ _ _ _ _).symm
    · obtain ⟨e0, e1, e2, e3, e4, e5, e6, e7, e8⟩ := hagree c
      refine (h c).2.1.trans ((Cert.ReferenceIdeal.Read.val_main_v62_eq m' c).trans ?_)
      rw [e0, e1, e2, e3, e4, e7, e8]
      exact (Cert.Bridge.Compose.layer2_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
